-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S200000x64 : Shape := ⟨2, ![200000, 64]⟩
abbrev S4000000 : Shape := ⟨1, ![4000000]⟩
abbrev S8192 : Shape := ⟨1, ![8192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S4000000 : S_.BroadcastsInDim S4000000 (![] : Fin 0 → Fin S4000000.rank)
  reducesTo_S4000000_S_d0 : S4000000.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : IVec S8192 32) (main_v27 : IVec S_ 1) (main_v32 : IVec S8192 1) (main_c_12 : IVec S_ 1) : IVec S_ 1 :=
  let main_v33 : IVec S_ 1 := (fun x v => Host.reduce IntOp.andi x v reducesTo_S8192_S_d0 h_S_) main_v32 main_c_12
  let main_v34 : IVec S_ 1 := andi main_v27 main_v33
  let main_c_13 : IVec S_ 32 := constantI S_ 32 0#32
  let main_v35 : IVec S8192 32 := broadcastInDim S8192 ![] bcast_S_S8192 main_c_13
  let main_v36 : IVec S8192 1 := cmpi .sge main_arg7 main_v35
  let main_c_14 : IVec S_ 32 := constantI S_ 32 200000#32
  let main_v37 : IVec S8192 32 := broadcastInDim S8192 ![] bcast_S_S8192 main_c_14
  let main_v38 : IVec S8192 1 := cmpi .slt main_arg7 main_v37
  let main_v39 : IVec S8192 1 := andi main_v36 main_v38
  let main_c_15 : IVec S_ 1 := constantI S_ 1 1#1
  let main_v40 : IVec S_ 1 := (fun x v => Host.reduce IntOp.andi x v reducesTo_S8192_S_d0 h_S_) main_v39 main_c_15
  let main_v41 : IVec S_ 1 := andi main_v34 main_v40
  main_v41

def fn_part1 {F : FTy → Type} [FloatOps F] (main_arg2 : IVec S4000000 32) (main_arg5 : IVec S8192 32) (main_arg6 : IVec S8192 32) (main_arg7 : IVec S8192 32) (main_v13 : IVec S_ 1) (main_v15 : IVec S4000000 1) (main_c_5 : IVec S_ 32) : IVec S_ 1 :=
  let main_v16 : IVec S4000000 32 := broadcastInDim S4000000 ![] bcast_S_S4000000 main_c_5
  let main_v17 : IVec S4000000 1 := cmpi .slt main_arg2 main_v16
  let main_v18 : IVec S4000000 1 := andi main_v15 main_v17
  let main_c_6 : IVec S_ 1 := constantI S_ 1 1#1
  let main_v19 : IVec S_ 1 := (fun x v => Host.reduce IntOp.andi x v reducesTo_S4000000_S_d0 h_S_) main_v18 main_c_6
  let main_v20 : IVec S_ 1 := andi main_v13 main_v19
  let main_c_7 : IVec S_ 32 := constantI S_ 32 0#32
  let main_v21 : IVec S8192 32 := broadcastInDim S8192 ![] bcast_S_S8192 main_c_7
  let main_v22 : IVec S8192 1 := cmpi .sge main_arg5 main_v21
  let main_c_8 : IVec S_ 32 := constantI S_ 32 100000#32
  let main_v23 : IVec S8192 32 := broadcastInDim S8192 ![] bcast_S_S8192 main_c_8
  let main_v24 : IVec S8192 1 := cmpi .slt main_arg5 main_v23
  let main_v25 : IVec S8192 1 := andi main_v22 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v20 main_v26
  let main_c_10 : IVec S_ 32 := constantI S_ 32 0#32
  let main_v28 : IVec S8192 32 := broadcastInDim S8192 ![] bcast_S_S8192 main_c_10
  let main_v29 : IVec S8192 1 := cmpi .sge main_arg6 main_v28
  let main_c_11 : IVec S_ 32 := constantI S_ 32 200000#32
  let main_v30 : IVec S8192 32 := broadcastInDim S8192 ![] bcast_S_S8192 main_c_11
  let main_v31 : IVec S8192 1 := cmpi .slt main_arg6 main_v30
  let main_v32 : IVec S8192 1 := andi main_v29 main_v31
  let main_c_12 : IVec S_ 1 := constantI S_ 1 1#1
  fn_part2 (F := F) main_arg7 main_v27 main_v32 main_c_12

def fn {F : FTy → Type} [FloatOps F] (main_arg0 : FVec F S100000x64 .f32) (main_arg1 : FVec F S200000x64 .f32) (main_arg2 : IVec S4000000 32) (main_arg3 : IVec S4000000 32) (main_arg4 : FVec F S4000000 .f32) (main_arg5 : IVec S8192 32) (main_arg6 : IVec S8192 32) (main_arg7 : IVec S8192 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S4000000 .f32 := Host.absf main_arg4
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_c_4 : IVec S_ 32 := constantI S_ 32 0#32
  let main_v14 : IVec S4000000 32 := broadcastInDim S4000000 ![] bcast_S_S4000000 main_c_4
  let main_v15 : IVec S4000000 1 := cmpi .sge main_arg2 main_v14
  let main_c_5 : IVec S_ 32 := constantI S_ 32 300000#32
  fn_part1 (F := F) main_arg2 main_arg5 main_arg6 main_arg7 main_v13 main_v15 main_c_5
-- ==== Kernel.lean ====
abbrev S100000x64 : Shape := ⟨2, ![100000, 64]⟩
abbrev S200000x64 : Shape := ⟨2, ![200000, 64]⟩
abbrev S4000000 : Shape := ⟨1, ![4000000]⟩
abbrev S8192 : Shape := ⟨1, ![8192]⟩
abbrev S300000x64 : Shape := ⟨2, ![300000, 64]⟩
abbrev S4000000x1 : Shape := ⟨2, ![4000000, 1]⟩
abbrev S_ : Shape := ⟨0, ![]⟩
abbrev S1 : Shape := ⟨1, ![1]⟩
abbrev S1x1 : Shape := ⟨2, ![1, 1]⟩
abbrev S4000000x64 : Shape := ⟨2, ![4000000, 64]⟩
abbrev S10000x64 : Shape := ⟨2, ![10000, 64]⟩
abbrev S10000x1 : Shape := ⟨2, ![10000, 1]⟩
abbrev S12000x64 : Shape := ⟨2, ![12000, 64]⟩
abbrev S8192x1 : Shape := ⟨2, ![8192, 1]⟩
abbrev S8192x64 : Shape := ⟨2, ![8192, 64]⟩
abbrev S1024x64 : Shape := ⟨2, ![1024, 64]⟩
abbrev S1024 : Shape := ⟨1, ![1024]⟩
abbrev S1024x1 : Shape := ⟨2, ![1024, 1]⟩

abbrev nBuf : Space → Nat
  | .hbm => 171
  | .vmem => 47
  | .smem => 0
  | _ => 0

abbrev hbmTy0_0 (i : Nat) : BufTy := match i % 128 with
  | 0 => ⟨S100000x64, .f32⟩
  | 1 => ⟨S200000x64, .f32⟩
  | 2 => ⟨S4000000, .i32⟩
  | 3 => ⟨S4000000, .i32⟩
  | 4 => ⟨S4000000, .f32⟩
  | 5 => ⟨S8192, .i32⟩
  | 6 => ⟨S8192, .i32⟩
  | 7 => ⟨S8192, .i32⟩
  | 8 => ⟨S300000x64, .f32⟩
  | 9 => ⟨S4000000x1, .f32⟩
  | 10 => ⟨S_, .i32⟩
  | 11 => ⟨S4000000, .i32⟩
  | 12 => ⟨S4000000, .i1⟩
  | 13 => ⟨S_, .i32⟩
  | 14 => ⟨S4000000, .i32⟩
  | 15 => ⟨S4000000, .i32⟩
  | 16 => ⟨S4000000, .i32⟩
  | 17 => ⟨S4000000x1, .i32⟩
  | 18 => ⟨S1, .i32⟩
  | 19 => ⟨S_, .i32⟩
  | 20 => ⟨S4000000x1, .i32⟩
  | 21 => ⟨S4000000x1, .i1⟩
  | 22 => ⟨S1x1, .i32⟩
  | 23 => ⟨S4000000x1, .i32⟩
  | 24 => ⟨S4000000x1, .i1⟩
  | 25 => ⟨S4000000x1, .i1⟩
  | 26 => ⟨S_, .i1⟩
  | 27 => ⟨S4000000, .i1⟩
  | 28 => ⟨S4000000x64, .f32⟩
  | 29 => ⟨S4000000x64, .i1⟩
  | 30 => ⟨S_, .f32⟩
  | 31 => ⟨S4000000x64, .f32⟩
  | 32 => ⟨S4000000x64, .f32⟩
  | 33 => ⟨S4000000x64, .f32⟩
  | 34 => ⟨S_, .f32⟩
  | 35 => ⟨S300000x64, .f32⟩
  | 36 => ⟨S4000000x1, .i32⟩
  | 37 => ⟨S300000x64, .f32⟩
  | 38 => ⟨S300000x64, .f32⟩
  | 39 => ⟨S_, .i32⟩
  | 40 => ⟨S4000000, .i32⟩
  | 41 => ⟨S4000000, .i1⟩
  | 42 => ⟨S_, .i32⟩
  | 43 => ⟨S4000000, .i32⟩
  | 44 => ⟨S4000000, .i32⟩
  | 45 => ⟨S4000000, .i32⟩
  | 46 => ⟨S4000000x1, .i32⟩
  | 47 => ⟨S1, .i32⟩
  | 48 => ⟨S_, .i32⟩
  | 49 => ⟨S4000000x1, .i32⟩
  | 50 => ⟨S4000000x1, .i1⟩
  | 51 => ⟨S1x1, .i32⟩
  | 52 => ⟨S4000000x1, .i32⟩
  | 53 => ⟨S4000000x1, .i1⟩
  | 54 => ⟨S4000000x1, .i1⟩
  | 55 => ⟨S_, .i1⟩
  | 56 => ⟨S4000000, .i1⟩
  | 57 => ⟨S4000000x64, .f32⟩
  | 58 => ⟨S4000000x64, .i1⟩
  | 59 => ⟨S_, .f32⟩
  | 60 => ⟨S4000000x64, .f32⟩
  | 61 => ⟨S4000000x64, .f32⟩
  | 62 => ⟨S4000000x64, .f32⟩
  | 63 => ⟨S_, .f32⟩
  | 64 => ⟨S300000x64, .f32⟩
  | 65 => ⟨S4000000x1, .i32⟩
  | 66 => ⟨S300000x64, .f32⟩
  | 67 => ⟨S300000x64, .f32⟩
  | 68 => ⟨S_, .i32⟩
  | 69 => ⟨S4000000, .i32⟩
  | 70 => ⟨S4000000, .i1⟩
  | 71 => ⟨S_, .i32⟩
  | 72 => ⟨S4000000, .i32⟩
  | 73 => ⟨S4000000, .i32⟩
  | 74 => ⟨S4000000, .i32⟩
  | 75 => ⟨S4000000x1, .i32⟩
  | 76 => ⟨S1, .i32⟩
  | 77 => ⟨S_, .i32⟩
  | 78 => ⟨S4000000x1, .i32⟩
  | 79 => ⟨S4000000x1, .i1⟩
  | 80 => ⟨S1x1, .i32⟩
  | 81 => ⟨S4000000x1, .i32⟩
  | 82 => ⟨S4000000x1, .i1⟩
  | 83 => ⟨S4000000x1, .i1⟩
  | 84 => ⟨S_, .i1⟩
  | 85 => ⟨S4000000, .i1⟩
  | 86 => ⟨S4000000x64, .f32⟩
  | 87 => ⟨S4000000x64, .i1⟩
  | 88 => ⟨S_, .f32⟩
  | 89 => ⟨S4000000x64, .f32⟩
  | 90 => ⟨S4000000x64, .f32⟩
  | 91 => ⟨S4000000x64, .f32⟩
  | 92 => ⟨S_, .f32⟩
  | 93 => ⟨S300000x64, .f32⟩
  | 94 => ⟨S4000000x1, .i32⟩
  | 95 => ⟨S300000x64, .f32⟩
  | 96 => ⟨S300000x64, .f32⟩
  | 97 => ⟨S300000x64, .f32⟩
  | 98 => ⟨S100000x64, .f32⟩
  | 99 => ⟨S200000x64, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S1, .i32⟩
  | 109 => ⟨S_, .i32⟩
  | 110 => ⟨S8192x1, .i32⟩
  | 111 => ⟨S8192x1, .i1⟩
  | 112 => ⟨S1x1, .i32⟩
  | 113 => ⟨S8192x1, .i32⟩
  | 114 => ⟨S8192x1, .i1⟩
  | 115 => ⟨S8192x1, .i1⟩
  | 116 => ⟨S_, .i1⟩
  | 117 => ⟨S8192, .i1⟩
  | 118 => ⟨S8192x64, .f32⟩
  | 119 => ⟨S8192x64, .i1⟩
  | 120 => ⟨S_, .f32⟩
  | 121 => ⟨S8192x64, .f32⟩
  | 122 => ⟨S8192x64, .f32⟩
  | 123 => ⟨S_, .i32⟩
  | 124 => ⟨S8192, .i32⟩
  | 125 => ⟨S8192, .i1⟩
  | 126 => ⟨S_, .i32⟩
  | 127 => ⟨S8192, .i32⟩
  | _ => ⟨S100000x64, .f32⟩

abbrev hbmTy0_1 (i : Nat) : BufTy := match i % 128 with
  | 0 => ⟨S8192, .i32⟩
  | 1 => ⟨S8192, .i32⟩
  | 2 => ⟨S8192x1, .i32⟩
  | 3 => ⟨S1, .i32⟩
  | 4 => ⟨S_, .i32⟩
  | 5 => ⟨S8192x1, .i32⟩
  | 6 => ⟨S8192x1, .i1⟩
  | 7 => ⟨S1x1, .i32⟩
  | 8 => ⟨S8192x1, .i32⟩
  | 9 => ⟨S8192x1, .i1⟩
  | 10 => ⟨S8192x1, .i1⟩
  | 11 => ⟨S_, .i1⟩
  | 12 => ⟨S8192, .i1⟩
  | 13 => ⟨S8192x64, .f32⟩
  | 14 => ⟨S8192x64, .i1⟩
  | 15 => ⟨S_, .f32⟩
  | 16 => ⟨S8192x64, .f32⟩
  | 17 => ⟨S8192x64, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S1, .i32⟩
  | 27 => ⟨S_, .i32⟩
  | 28 => ⟨S8192x1, .i32⟩
  | 29 => ⟨S8192x1, .i1⟩
  | 30 => ⟨S1x1, .i32⟩
  | 31 => ⟨S8192x1, .i32⟩
  | 32 => ⟨S8192x1, .i1⟩
  | 33 => ⟨S8192x1, .i1⟩
  | 34 => ⟨S_, .i1⟩
  | 35 => ⟨S8192, .i1⟩
  | 36 => ⟨S8192x64, .f32⟩
  | 37 => ⟨S8192x64, .i1⟩
  | 38 => ⟨S_, .f32⟩
  | 39 => ⟨S8192x64, .f32⟩
  | 40 => ⟨S8192x64, .f32⟩
  | 41 => ⟨S1x1, .f32⟩
  | 42 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S12000x64, .f32⟩
  | .local _ .vmem, ⟨7, _⟩ => ⟨S12000x64, .f32⟩
  | .local _ .vmem, ⟨8, _⟩ => ⟨S12000x64, .f32⟩
  | .local _ .vmem, ⟨9, _⟩ => ⟨S12000x64, .f32⟩
  | .local _ .vmem, ⟨10, _⟩ => ⟨S12000x64, .f32⟩
  | .local _ .vmem, ⟨11, _⟩ => ⟨S12000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S10000x64, .f32⟩
  | .local _ .vmem, ⟨17, _⟩ => ⟨S10000x64, .f32⟩
  | .local _ .vmem, ⟨18, _⟩ => ⟨S12000x64, .f32⟩
  | .local _ .vmem, ⟨19, _⟩ => ⟨S12000x64, .f32⟩
  | .local _ .vmem, ⟨20, _⟩ => ⟨S12000x64, .f32⟩
  | .local _ .vmem, ⟨21, _⟩ => ⟨S12000x64, .f32⟩
  | .local _ .vmem, ⟨22, _⟩ => ⟨S12000x64, .f32⟩
  | .local _ .vmem, ⟨23, _⟩ => ⟨S12000x64, .f32⟩
  | .local _ .vmem, ⟨24, _⟩ => ⟨S10000x64, .f32⟩
  | .local _ .vmem, ⟨25, _⟩ => ⟨S10000x64, .f32⟩
  | .local _ .vmem, ⟨26, _⟩ => ⟨S10000x1, .f32⟩
  | .local _ .vmem, ⟨27, _⟩ => ⟨S10000x1, .f32⟩
  | .local _ .vmem, ⟨28, _⟩ => ⟨S10000x64, .f32⟩
  | .local _ .vmem, ⟨29, _⟩ => ⟨S10000x64, .f32⟩
  | .local _ .vmem, ⟨30, _⟩ => ⟨S12000x64, .f32⟩
  | .local _ .vmem, ⟨31, _⟩ => ⟨S12000x64, .f32⟩
  | .local _ .vmem, ⟨32, _⟩ => ⟨S12000x64, .f32⟩
  | .local _ .vmem, ⟨33, _⟩ => ⟨S12000x64, .f32⟩
  | .local _ .vmem, ⟨34, _⟩ => ⟨S12000x64, .f32⟩
  | .local _ .vmem, ⟨35, _⟩ => ⟨S12000x64, .f32⟩
  | .local _ .vmem, ⟨36, _⟩ => ⟨S12000x64, .f32⟩
  | .local _ .vmem, ⟨37, _⟩ => ⟨S12000x64, .f32⟩
  | .local _ .vmem, ⟨38, _⟩ => ⟨S12000x64, .f32⟩
  | .local _ .vmem, ⟨39, _⟩ => ⟨S12000x64, .f32⟩
  | .local _ .vmem, ⟨40, _⟩ => ⟨S1024x64, .f32⟩
  | .local _ .vmem, ⟨41, _⟩ => ⟨S1024x64, .f32⟩
  | .local _ .vmem, ⟨42, _⟩ => ⟨S1024x64, .f32⟩
  | .local _ .vmem, ⟨43, _⟩ => ⟨S1024x64, .f32⟩
  | .local _ .vmem, ⟨44, _⟩ => ⟨S1024x64, .f32⟩
  | .local _ .vmem, ⟨45, _⟩ => ⟨S1024x64, .f32⟩
  | .local _ .vmem, ⟨46, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v8 : Ref sig .tc := ⟨.hbm, 61, rfl⟩
abbrev main_v9 : Ref sig .tc := ⟨.hbm, 62, rfl⟩
abbrev main_cst_0 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v14 : Ref sig .tc := ⟨.hbm, 90, rfl⟩
abbrev main_v15 : Ref sig .tc := ⟨.hbm, 91, rfl⟩
abbrev main_cst_1 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v23 : Ref sig .tc := ⟨.hbm, 122, rfl⟩
abbrev main_call4_c : Ref sig .tc := ⟨.hbm, 123, rfl⟩
abbrev main_call4_v0 : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_v5 : Ref sig .tc := ⟨.hbm, 130, rfl⟩
abbrev main_call4_c_1 : Ref sig .tc := ⟨.hbm, 131, rfl⟩
abbrev main_call4_c_2 : Ref sig .tc := ⟨.hbm, 132, rfl⟩
abbrev main_call4_v6 : Ref sig .tc := ⟨.hbm, 133, rfl⟩
abbrev main_call4_v7 : Ref sig .tc := ⟨.hbm, 134, rfl⟩
abbrev main_call4_v8 : Ref sig .tc := ⟨.hbm, 135, rfl⟩
abbrev main_call4_v9 : Ref sig .tc := ⟨.hbm, 136, rfl⟩
abbrev main_call4_v10 : Ref sig .tc := ⟨.hbm, 137, rfl⟩
abbrev main_call4_v11 : Ref sig .tc := ⟨.hbm, 138, rfl⟩
abbrev main_call4_c_3 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_call4_cst : Ref sig .tc := ⟨.hbm, 143, rfl⟩
abbrev main_call4_v15 : Ref sig .tc := ⟨.hbm, 144, rfl⟩
abbrev main_v24 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v25 : Ref sig .tc := ⟨.hbm, 168, rfl⟩
abbrev main_v26 : Ref sig .tc := ⟨.hbm, 169, rfl⟩
abbrev main_v27 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg1_1 : Ref sig .tc := ⟨.vmem, 43, rfl⟩
abbrev cc7_stg2_0 : Ref sig .tc := ⟨.vmem, 44, rfl⟩
abbrev cc7_stg2_1 : Ref sig .tc := ⟨.vmem, 45, rfl⟩
abbrev cc7_stg3_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S12000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S12000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S12000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S12000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S12000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1024x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1024x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1024x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  concatenates_S100000x64_S200000x64_S300000x64_d0 : Shape.Concatenates [S100000x64, S200000x64] S300000x64 0
  shapeCasts_S4000000_S4000000x1 : S4000000.ShapeCasts S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S4000000x64_0 : S4000000.BroadcastsInDim S4000000x64 (![0] : Fin 1 → Fin S4000000x64.rank)
  bcast_S_S4000000x64 : S_.BroadcastsInDim S4000000x64 (![] : Fin 0 → Fin S4000000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S300000x64 : S_.BroadcastsInDim S300000x64 (![] : Fin 0 → Fin S300000x64.rank)
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  slices_S300000x64_S100000x64_0_0 : S300000x64.Slices ![0, 0] S100000x64
  slices_S300000x64_S200000x64_100000_0 : S300000x64.Slices ![100000, 0] S200000x64
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x64_0 : S8192.BroadcastsInDim S8192x64 (![0] : Fin 1 → Fin S8192x64.rank)
  bcast_S_S8192x64 : S_.BroadcastsInDim S8192x64 (![] : Fin 0 → Fin S8192x64.rank)
  inb_S1x1_S1x1_0_0 : ∀ a, (![0, 0] : Fin 2 → Nat) a + S1x1.size a ≤ S1x1.size a
  h_S1x1 : 0 < S1x1.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  shapeCasts_S1x1_S1x1 : S1x1.ShapeCasts S1x1
  reduces_S1024x1_S1 : S1024x1.Reduces [0] S1
  shapeCasts_S1_S1x1 : S1.ShapeCasts S1x1
  shapeCasts_S1x1_S_ : S1x1.ShapeCasts S_
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  gather_S100000x64_S8192x1_S8192x64_1_0_n_n_0_1_164_wf : GatherDims.WF S100000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S4000000x64.size a
  hwx0_0 : ∀ i : grid0.Coords, EltTy.bits .f32 = 32 ∨ (Rect.block (s := S4000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S4000000x1.size a
  hwx0_1 : ∀ i : grid0.Coords, EltTy.bits .f32 = 32 ∨ (Rect.block (s := S4000000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S4000000x64.size a
  hwx0_2 : ∀ i : grid0.Coords, EltTy.bits .f32 = 32 ∨ (Rect.block (s := S4000000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x64.size a ≤ S300000x64.size a
  hwx1_0 : ∀ i : grid1.Coords, EltTy.bits .f32 = 32 ∨ (Rect.block (s := S300000x64) S12000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S300000x64.size a
  hwx1_1 : ∀ i : grid1.Coords, EltTy.bits .f32 = 32 ∨ (Rect.block (s := S300000x64) S12000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12000x64.size a ≤ S300000x64.size a
  hwx1_2 : ∀ i : grid1.Coords, EltTy.bits .f32 = 32 ∨ (Rect.block (s := S300000x64) S12000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S4000000x64.size a
  hwx2_0 : ∀ i : grid2.Coords, EltTy.bits .f32 = 32 ∨ (Rect.block (s := S4000000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S4000000x1.size a
  hwx2_1 : ∀ i : grid2.Coords, EltTy.bits .f32 = 32 ∨ (Rect.block (s := S4000000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S4000000x64.size a
  hwx2_2 : ∀ i : grid2.Coords, EltTy.bits .f32 = 32 ∨ (Rect.block (s := S4000000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x64.size a ≤ S300000x64.size a
  hwx3_0 : ∀ i : grid3.Coords, EltTy.bits .f32 = 32 ∨ (Rect.block (s := S300000x64) S12000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12000x64.size a ≤ S300000x64.size a
  hwx3_1 : ∀ i : grid3.Coords, EltTy.bits .f32 = 32 ∨ (Rect.block (s := S300000x64) S12000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S12000x64.size a ≤ S300000x64.size a
  hwx3_2 : ∀ i : grid3.Coords, EltTy.bits .f32 = 32 ∨ (Rect.block (s := S300000x64) S12000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S4000000x64.size a
  hwx4_0 : ∀ i : grid4.Coords, EltTy.bits .f32 = 32 ∨ (Rect.block (s := S4000000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S4000000x1.size a
  hwx4_1 : ∀ i : grid4.Coords, EltTy.bits .f32 = 32 ∨ (Rect.block (s := S4000000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S4000000x64.size a
  hwx4_2 : ∀ i : grid4.Coords, EltTy.bits .f32 = 32 ∨ (Rect.block (s := S4000000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x64.size a ≤ S300000x64.size a
  hwx5_0 : ∀ i : grid5.Coords, EltTy.bits .f32 = 32 ∨ (Rect.block (s := S300000x64) S12000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S12000x64.size a ≤ S300000x64.size a
  hwx5_1 : ∀ i : grid5.Coords, EltTy.bits .f32 = 32 ∨ (Rect.block (s := S300000x64) S12000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S12000x64.size a ≤ S300000x64.size a
  hwx5_2 : ∀ i : grid5.Coords, EltTy.bits .f32 = 32 ∨ (Rect.block (s := S300000x64) S12000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S12000x64.size a ≤ S300000x64.size a
  hwx6_0 : ∀ i : grid6.Coords, EltTy.bits .f32 = 32 ∨ (Rect.block (s := S300000x64) S12000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S12000x64.size a ≤ S300000x64.size a
  hwx6_1 : ∀ i : grid6.Coords, EltTy.bits .f32 = 32 ∨ (Rect.block (s := S300000x64) S12000x64.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x64.size a ≤ S8192x64.size a
  hwx7_0 : ∀ i : grid7.Coords, EltTy.bits .f32 = 32 ∨ (Rect.block (s := S8192x64) S1024x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x64.size a ≤ S8192x64.size a
  hwx7_1 : ∀ i : grid7.Coords, EltTy.bits .f32 = 32 ∨ (Rect.block (s := S8192x64) S1024x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x64.size a ≤ S8192x64.size a
  hwx7_2 : ∀ i : grid7.Coords, EltTy.bits .f32 = 32 ∨ (Rect.block (s := S8192x64) S1024x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf

abbrev win0_0 : Pipeline.Window sig grid0 :=
  Pipeline.Window.ofSpec (Memref.whole main_v2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S12000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S12000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S12000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S12000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S12000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S12000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v14) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v15) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v13) S12000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S12000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v19) S12000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v19) S12000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v20) S12000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v23) S1024x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v24) S1024x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v25) S1024x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26) S1x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S200000x64 : Shape := ⟨2, ![200000, 64]⟩
abbrev S4000000 : Shape := ⟨1, ![4000000]⟩
abbrev S8192 : Shape := ⟨1, ![8192]⟩
abbrev S300000x64 : Shape := ⟨2, ![300000, 64]⟩
abbrev S4000000x1 : Shape := ⟨2, ![4000000, 1]⟩
abbrev S_ : Shape := ⟨0, ![]⟩
abbrev S4000000x64 : Shape := ⟨2, ![4000000, 64]⟩
abbrev S8192x1 : Shape := ⟨2, ![8192, 1]⟩
abbrev S8192x64 : Shape := ⟨2, ![8192, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S200000x64, .f32⟩
  | .hbm, ⟨2, _⟩ => ⟨S4000000, .i32⟩
  | .hbm, ⟨3, _⟩ => ⟨S4000000, .i32⟩
  | .hbm, ⟨4, _⟩ => ⟨S4000000, .f32⟩
  | .hbm, ⟨5, _⟩ => ⟨S8192, .i32⟩
  | .hbm, ⟨6, _⟩ => ⟨S8192, .i32⟩
  | .hbm, ⟨7, _⟩ => ⟨S8192, .i32⟩
  | .hbm, ⟨8, _⟩ => ⟨S300000x64, .f32⟩
  | .hbm, ⟨9, _⟩ => ⟨S4000000x1, .f32⟩
  | .hbm, ⟨10, _⟩ => ⟨S_, .i32⟩
  | .hbm, ⟨11, _⟩ => ⟨S4000000, .i32⟩
  | .hbm, ⟨12, _⟩ => ⟨S4000000, .i1⟩
  | .hbm, ⟨13, _⟩ => ⟨S_, .i32⟩
  | .hbm, ⟨14, _⟩ => ⟨S4000000, .i32⟩
  | .hbm, ⟨15, _⟩ => ⟨S4000000, .i32⟩
  | .hbm, ⟨16, _⟩ => ⟨S4000000, .i32⟩
  | .hbm, ⟨17, _⟩ => ⟨S4000000x1, .i32⟩
  | .hbm, ⟨18, _⟩ => ⟨S4000000x64, .f32⟩
  | .hbm, ⟨19, _⟩ => ⟨S4000000x64, .f32⟩
  | .hbm, ⟨20, _⟩ => ⟨S4000000x64, .f32⟩
  | .hbm, ⟨21, _⟩ => ⟨S_, .f32⟩
  | .hbm, ⟨22, _⟩ => ⟨S300000x64, .f32⟩
  | .hbm, ⟨23, _⟩ => ⟨S4000000x1, .i32⟩
  | .hbm, ⟨24, _⟩ => ⟨S300000x64, .f32⟩
  | .hbm, ⟨25, _⟩ => ⟨S300000x64, .f32⟩
  | .hbm, ⟨26, _⟩ => ⟨S4000000x1, .f32⟩
  | .hbm, ⟨27, _⟩ => ⟨S_, .i32⟩
  | .hbm, ⟨28, _⟩ => ⟨S4000000, .i32⟩
  | .hbm, ⟨29, _⟩ => ⟨S4000000, .i1⟩
  | .hbm, ⟨30, _⟩ => ⟨S_, .i32⟩
  | .hbm, ⟨31, _⟩ => ⟨S4000000, .i32⟩
  | .hbm, ⟨32, _⟩ => ⟨S4000000, .i32⟩
  | .hbm, ⟨33, _⟩ => ⟨S4000000, .i32⟩
  | .hbm, ⟨34, _⟩ => ⟨S4000000x1, .i32⟩
  | .hbm, ⟨35, _⟩ => ⟨S4000000x64, .f32⟩
  | .hbm, ⟨36, _⟩ => ⟨S4000000x64, .f32⟩
  | .hbm, ⟨37, _⟩ => ⟨S4000000x64, .f32⟩
  | .hbm, ⟨38, _⟩ => ⟨S_, .f32⟩
  | .hbm, ⟨39, _⟩ => ⟨S300000x64, .f32⟩
  | .hbm, ⟨40, _⟩ => ⟨S4000000x1, .i32⟩
  | .hbm, ⟨41, _⟩ => ⟨S300000x64, .f32⟩
  | .hbm, ⟨42, _⟩ => ⟨S300000x64, .f32⟩
  | .hbm, ⟨43, _⟩ => ⟨S4000000x1, .f32⟩
  | .hbm, ⟨44, _⟩ => ⟨S_, .i32⟩
  | .hbm, ⟨45, _⟩ => ⟨S4000000, .i32⟩
  | .hbm, ⟨46, _⟩ => ⟨S4000000, .i1⟩
  | .hbm, ⟨47, _⟩ => ⟨S_, .i32⟩
  | .hbm, ⟨48, _⟩ => ⟨S4000000, .i32⟩
  | .hbm, ⟨49, _⟩ => ⟨S4000000, .i32⟩
  | .hbm, ⟨50, _⟩ => ⟨S4000000, .i32⟩
  | .hbm, ⟨51, _⟩ => ⟨S4000000x1, .i32⟩
  | .hbm, ⟨52, _⟩ => ⟨S4000000x64, .f32⟩
  | .hbm, ⟨53, _⟩ => ⟨S4000000x64, .f32⟩
  | .hbm, ⟨54, _⟩ => ⟨S4000000x64, .f32⟩
  | .hbm, ⟨55, _⟩ => ⟨S_, .f32⟩
  | .hbm, ⟨56, _⟩ => ⟨S300000x64, .f32⟩
  | .hbm, ⟨57, _⟩ => ⟨S4000000x1, .i32⟩
  | .hbm, ⟨58, _⟩ => ⟨S300000x64, .f32⟩
  | .hbm, ⟨59, _⟩ => ⟨S300000x64, .f32⟩
  | .hbm, ⟨60, _⟩ => ⟨S_, .f32⟩
  | .hbm, ⟨61, _⟩ => ⟨S300000x64, .f32⟩
  | .hbm, ⟨62, _⟩ => ⟨S300000x64, .f32⟩
  | .hbm, ⟨63, _⟩ => ⟨S100000x64, .f32⟩
  | .hbm, ⟨64, _⟩ => ⟨S200000x64, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x64, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x64, .f32⟩
  | .hbm, ⟨83, _⟩ => ⟨S_, .i32⟩
  | .hbm, ⟨84, _⟩ => ⟨S8192, .i32⟩
  | .hbm, ⟨85, _⟩ => ⟨S8192, .i1⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S8192, .i32⟩
  | .hbm, ⟨90, _⟩ => ⟨S8192x1, .i32⟩
  | .hbm, ⟨91, _⟩ => ⟨S8192x64, .f32⟩
  | .hbm, ⟨92, _⟩ => ⟨S8192x64, .f32⟩
  | .hbm, ⟨93, _⟩ => ⟨S_, .f32⟩
  | .hbm, ⟨94, _⟩ => ⟨S8192, .f32⟩
  | .hbm, ⟨95, _⟩ => ⟨S8192x64, .f32⟩
  | .hbm, ⟨96, _⟩ => ⟨S_, .f32⟩
  | .hbm, ⟨97, _⟩ => ⟨S8192, .f32⟩
  | .hbm, ⟨98, _⟩ => ⟨S8192, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S8192, .i1⟩
  | .hbm, ⟨105, _⟩ => ⟨S8192, .f32⟩
  | .hbm, ⟨106, _⟩ => ⟨S8192, .f32⟩
  | .hbm, ⟨107, _⟩ => ⟨S8192, .f32⟩
  | .hbm, ⟨108, _⟩ => ⟨S8192, .f32⟩
  | .hbm, ⟨109, _⟩ => ⟨S8192, .f32⟩
  | .hbm, ⟨110, _⟩ => ⟨S8192, .f32⟩
  | .hbm, ⟨111, _⟩ => ⟨S8192, .f32⟩
  | .hbm, ⟨112, _⟩ => ⟨S8192, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_8 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_v73 : Ref sig .tc := ⟨.hbm, 112, rfl⟩
abbrev main_cst_16 : Ref sig .tc := ⟨.hbm, 113, rfl⟩
abbrev main_v74 : Ref sig .tc := ⟨.hbm, 114, rfl⟩
abbrev main_cst_17 : Ref sig .tc := ⟨.hbm, 115, rfl⟩
abbrev main_v75 : Ref sig .tc := ⟨.hbm, 116, rfl⟩

abbrev nD : Nat := 1
abbrev τ : Topo := Topo.v7x

variable {F : FTy → Type} [FloatOps F]

class Facts₀ : Prop where
  concatenates_S100000x64_S200000x64_S300000x64_d0 : Shape.Concatenates [S100000x64, S200000x64] S300000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  slices_S300000x64_S100000x64_0_0 : S300000x64.Slices ![0, 0] S100000x64
  slices_S300000x64_S200000x64_100000_0 : S300000x64.Slices ![100000, 0] S200000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  reducesTo_S8192_S_d0 : S8192.ReducesTo [0] S_
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  gather_S100000x64_S8192x1_S8192x64_1_0_n_n_0_1_164_wf : GatherDims.WF S100000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf

class Facts : Prop extends Facts₀ where

variable [Facts]
-- ==== Proof.Forms.lean ====
/-
  The arithmetic of the loss, written once over the extended reals and over literal shapes, with no program in sight.
  A message is an edge's gathered row times that edge's weight; the layer mean is the running sum times a quarter;
  a sampled triple (user, positive item, negative item) costs softplus of the negative score minus the positive
  score, a score being the dot product of two 64-wide rows; the loss is the mean of that cost over the 8192 triples.
-/
import Idealize.ShloMosaic.PureOps.Ideal
import Idealize.ShloMosaic.PureOps.Ideal.Laws
import Idealize.ShloMosaic.Lib.ValueIdx

noncomputable section

namespace Cert.Forms

open Idealize.ShloMosaic Idealize.ShloMosaic.ValueIdx

/-- Each of the 4,000,000 gathered rows scaled by its edge's weight, the weights laid out as a column. -/
def weighted (g : (⟨2, ![4000000, 64]⟩ : Shape).Idx → EReal) (v : (⟨2, ![4000000, 1]⟩ : Shape).Idx → EReal) :
    (⟨2, ![4000000, 64]⟩ : Shape).Idx → EReal :=
  fun i => g i * v (ix2 (n0 := 4000000) (n1 := 1) (i 0) 0)

/-- The same with the weights as a plain vector. -/
def weightedBy (g : (⟨2, ![4000000, 64]⟩ : Shape).Idx → EReal) (w : (⟨1, ![4000000]⟩ : Shape).Idx → EReal) :
    (⟨2, ![4000000, 64]⟩ : Shape).Idx → EReal :=
  fun i => g i * w (ix1 (n := 4000000) (i 0))

/-- The column form is the vector form when the column holds the vector. -/
theorem weighted_eq_weightedBy (g : (⟨2, ![4000000, 64]⟩ : Shape).Idx → EReal) (v : (⟨2, ![4000000, 1]⟩ : Shape).Idx → EReal)
    (w : (⟨1, ![4000000]⟩ : Shape).Idx → EReal) (h : ∀ e : Fin 4000000, v (ix2 e (0 : Fin 1)) = w (ix1 e)) :
    weighted g v = weightedBy g w := by
  funext i
  exact congrArg (fun t => g i * t) (h (i 0))

/-- Two node tables added entry by entry. -/
def summed (a b : (⟨2, ![300000, 64]⟩ : Shape).Idx → EReal) : (⟨2, ![300000, 64]⟩ : Shape).Idx → EReal :=
  fun i => a i + b i

/-- The mean over the four layer embeddings, from their sum: a quarter of it. -/
def quartered (a : (⟨2, ![300000, 64]⟩ : Shape).Idx → EReal) : (⟨2, ![300000, 64]⟩ : Shape).Idx → EReal :=
  fun i => a i * ((1 / 4 : ℝ) : EReal)

/-- log (1 + eˣ), spelt the numerically careful way: the positive part of x plus log (1 + e^(−|x|)). -/
def softplus (x : EReal) : EReal := max x 0 + Ideal.log1p (Ideal.exp (-(max x (-x))))

/-- The dot product of row i of two [8192, 64] arrays. -/
def rowDot (a b : (⟨2, ![8192, 64]⟩ : Shape).Idx → EReal) (i : Fin 8192) : EReal :=
  ∑ k : Fin 64, a (ix2 i k) * b (ix2 i k)

/-- What triple i costs: softplus of (negative score − positive score). -/
def pairLoss (u p n : (⟨2, ![8192, 64]⟩ : Shape).Idx → EReal) (i : Fin 8192) : EReal :=
  softplus (rowDot u n i - rowDot u p i)

/-- The mean cost over the 8192 triples. -/
def meanLoss (u p n : (⟨2, ![8192, 64]⟩ : Shape).Idx → EReal) : EReal :=
  (∑ i : Fin 8192, pairLoss u p n i) * ((1 / 8192 : ℝ) : EReal)

end Cert.Forms

end
-- ==== Proof.Chain.lean ====
/-
  The loss as ONE function of the eight argument arrays, the term both programs' results are stated with.
  Nodes are the users' rows followed by the items' rows. One propagation step gathers, for every edge, the row of the
  edge's source (a negative row number counted from the end, as the array library reads it), scales it by the edge's
  weight and adds it into the row of the edge's destination, starting from zeros. The layer mean is a quarter of the
  sum of the node table and the three propagated tables; the users' and the items' halves of it are read at the sampled
  row numbers, and the loss is the mean cost of the sampled triples (Forms).
  The gather, the scatter-add, the slices and the concatenation are carried as the library's own operations and never
  opened: the two programs apply the same ones.
-/
import proofs.«426244_j67757404061704_2_alg».proof.KernelIdeal
import proofs.«426244_j67757404061704_2_alg».proof.Proof.Gen.KernelIdeal
import proofs.«426244_j67757404061704_2_alg».proof.Proof.Forms

noncomputable section

namespace Cert.Chain

open Idealize.ShloMosaic Cert.KernelIdeal Cert.KernelIdeal.Facts₀ Cert.Forms

/-- The edge endpoints as a column of row numbers of an n-row table, a negative number counted from the end. -/
def colE (n : BitVec 32) (idx : IVec S4000000 32) : IVec S4000000x1 32 :=
  broadcastInDim S4000000x1 ![0] bcast_S4000000_S4000000x1_0
    (select (cmpi .slt idx (broadcastInDim S4000000 ![] bcast_S_S4000000 (constantI S_ 32 0#32)))
      (addi idx (broadcastInDim S4000000 ![] bcast_S_S4000000 (constantI S_ 32 n))) idx)

/-- The sampled row numbers likewise. -/
def colB (n : BitVec 32) (idx : IVec S8192 32) : IVec S8192x1 32 :=
  broadcastInDim S8192x1 ![0] bcast_S8192_S8192x1_0
    (select (cmpi .slt idx (broadcastInDim S8192 ![] bcast_S_S8192 (constantI S_ 32 0#32)))
      (addi idx (broadcastInDim S8192 ![] bcast_S_S8192 (constantI S_ 32 n))) idx)

/-- For every edge, the node table's row at the edge's source. -/
def rowsE (x : FVec Ideal S300000x64 .f32) (src : IVec S4000000 32) : FVec Ideal S4000000x64 .f32 :=
  Host.gather gather_S300000x64_S4000000x1_S4000000x64_1_0_n_n_0_1_164 x (colE 300000#32 src)

/-- The users' table read at the sampled users. -/
def rowsU (x : FVec Ideal S100000x64 .f32) (idx : IVec S8192 32) : FVec Ideal S8192x64 .f32 :=
  Host.gather gather_S100000x64_S8192x1_S8192x64_1_0_n_n_0_1_164 x (colB 100000#32 idx)

/-- The items' table read at the sampled items. -/
def rowsI (x : FVec Ideal S200000x64 .f32) (idx : IVec S8192 32) : FVec Ideal S8192x64 .f32 :=
  Host.gather gather_S200000x64_S8192x1_S8192x64_1_0_n_n_0_1_164 x (colB 200000#32 idx)

/-- Every edge's message added into its destination's row, from zeros. -/
def spread (u : FVec Ideal S4000000x64 .f32) (dst : IVec S4000000 32) : FVec Ideal S300000x64 .f32 :=
  Host.scatterAdd scatter_S300000x64_S4000000x1_S4000000x64_1_0_0_1
    (broadcastInDim S300000x64 ![] bcast_S_S300000x64 (constant S_ .f32 0x00000000#32))
    (broadcastInDim S4000000x1 ![0] bcast_S4000000_S4000000x1_0 dst) u

/-- The node table: users' rows, then items' rows. -/
def nodes (a0 : FVec Ideal S100000x64 .f32) (a1 : FVec Ideal S200000x64 .f32) : FVec Ideal S300000x64 .f32 :=
  concatenate S300000x64 0 [⟨S100000x64, a0⟩, ⟨S200000x64, a1⟩] concatenates_S100000x64_S200000x64_S300000x64_d0

/-- One propagation step. -/
def hop (cur : FVec Ideal S300000x64 .f32) (src dst : IVec S4000000 32) (w : FVec Ideal S4000000 .f32) :
    FVec Ideal S300000x64 .f32 :=
  spread (weightedBy (rowsE cur src) w) dst

/-- The users' half of a node table. -/
def usersOf (x : FVec Ideal S300000x64 .f32) : FVec Ideal S100000x64 .f32 :=
  extractStridedSlice S100000x64 ![0, 0] x slices_S300000x64_S100000x64_0_0

/-- The items' half. -/
def itemsOf (x : FVec Ideal S300000x64 .f32) : FVec Ideal S200000x64 .f32 :=
  extractStridedSlice S200000x64 ![100000, 0] x slices_S300000x64_S200000x64_100000_0

/-- The layer mean of the node table and its three propagations. -/
def layerMean (a0 : FVec Ideal S100000x64 .f32) (a1 : FVec Ideal S200000x64 .f32) (src dst : IVec S4000000 32)
    (w : FVec Ideal S4000000 .f32) : FVec Ideal S300000x64 .f32 :=
  let e := nodes a0 a1
  let c1 := hop e src dst w
  let c2 := hop c1 src dst w
  let c3 := hop c2 src dst w
  quartered (addf (addf (addf e c1) c2) c3)

/-- THE LOSS. -/
def loss (a0 : FVec Ideal S100000x64 .f32) (a1 : FVec Ideal S200000x64 .f32) (src dst : IVec S4000000 32)
    (w : FVec Ideal S4000000 .f32) (us ps ns : IVec S8192 32) : EReal :=
  let out := layerMean a0 a1 src dst w
  meanLoss (rowsU (usersOf out) us) (rowsI (itemsOf out) ps) (rowsI (itemsOf out) ns)

end Cert.Chain

end
-- ==== Proof.Takes.lean ====
/-
  The gathers. The kernel program reads rows of a table at an index vector by first counting a negative index from the
  end, then gathering, then overwriting every row whose index fell outside the table with a fill word. The
  precondition says every index the programs gather with is a row number of its table; then no row is overwritten and
  each of the six gathers is the plain gather at the same indices.
-/
import proofs.«426244_j67757404061704_2_alg».proof.Proof.Gen.KernelIdeal.Launch
import proofs.«426244_j67757404061704_2_alg».proof.Proof.Chain
import proofs.«426244_j67757404061704_2_alg».proof.Pre_finite_inputs
import proofs.«426244_j67757404061704_2_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

set_option maxRecDepth 16384

noncomputable section

namespace Cert.KernelIdeal.Takes

open Idealize.ShloMosaic Idealize.ShloMosaic.TcCoe Idealize.SL.Sem
open Idealize.ShloMosaic.StableHlo
open Cert.KernelIdeal Cert.KernelIdeal.Gen

/-- Every entry of an index vector is a row number of an n-row table: as a signed word, between 0 and n − 1. -/
def InRange {s : Shape} (n : Nat) (idx : IVec s 32) : Prop := ∀ i, (idx i).toNat < n

/-! ## From the precondition to the ranges -/

/-- The scalar shape has one index. -/
instance : Subsingleton (⟨0, ![]⟩ : Shape).Idx := ⟨fun a b => funext fun d => d.elim0⟩

/-- A word that is, read signed, at least 0 and below a small n has a value below n. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  unfold IntOp.cmpi at h0 h1
  rw [Predicate.ofBool_eq_one_iff] at h0 h1
  simp only [BitVec.sle, BitVec.slt, decide_eq_true_eq] at h0 h1
  rw [Predicate.toInt_ofNat_small n hn] at h1
  have z : (0#32 : BitVec 32).toInt = 0 := by decide
  rw [z] at h0
  rw [BitVec.toInt_eq_toNat_cond] at h0 h1
  have := w.isLt
  split at h0 <;> omega

/-- One conjunct of the precondition: "every entry is at least 0 and below n", all entries "and"-ed into one bit that
    is 1, says every entry is in range. -/
theorem inRange_of_all {s : Shape} (n : Nat) (hn : n < 2 ^ 31) (x z nn : IVec s 32) (hz : ∀ i, z i = 0#32)
    (hnn : ∀ i, nn i = BitVec.ofNat 32 n) {axes : List (Fin s.rank)} (hr : s.ReducesTo axes ⟨0, ![]⟩)
    (hu : 0 < (⟨0, ![]⟩ : Shape).numel) (init : IVec ⟨0, ![]⟩ 1)
    (e : Host.reduce IntOp.andi (andi (cmpi .sge x z) (cmpi .slt x nn)) init hr hu ValueIdx.ix0 = 1#1) : InRange n x := by
  intro i
  have ei := Host.reduce_andi_all _ init hr hu ValueIdx.ix0 e i
  change IntOp.andi (IntOp.cmpi .sge (x i) (z i)) (IntOp.cmpi .slt (x i) (nn i)) = 1#1 at ei
  rw [hz, hnn] at ei
  obtain ⟨e0, e1⟩ := IntOp.andi_eq_one.1 ei
  exact toNat_lt_of_signed _ n hn e0 e1

/-- What the precondition says of the four index inputs the programs gather with. The precondition is one "and" of
    eight conjuncts; the last four are the ranges of the edge sources, the sampled users and the two sampled item
    vectors; the first four (three finiteness checks and their "and") are passed over. -/
theorem of_pre (a0 : FVec Ideal S100000x64 .f32) (a1 : FVec Ideal S200000x64 .f32) (a2 a3 : IVec S4000000 32)
    (a4 : FVec Ideal S4000000 .f32) (a5 a6 a7 : IVec S8192 32)
    (h : Cert.Pre_finite_inputs.fn (F := Ideal) a0 a1 a2 a3 a4 a5 a6 a7 = fun _ => 1#1) :
    InRange 300000 a2 ∧ InRange 100000 a5 ∧ InRange 200000 a6 ∧ InRange 200000 a7 := by
  have e := congrFun h ValueIdx.ix0
  dsimp only [Cert.Pre_finite_inputs.fn, Cert.Pre_finite_inputs.fn_part1, Cert.Pre_finite_inputs.fn_part2] at e
  change IntOp.andi _ _ = 1#1 at e
  obtain ⟨e, e7⟩ := IntOp.andi_eq_one.1 e
  change IntOp.andi _ _ = 1#1 at e
  obtain ⟨e, e6⟩ := IntOp.andi_eq_one.1 e
  change IntOp.andi _ _ = 1#1 at e
  obtain ⟨e, e5⟩ := IntOp.andi_eq_one.1 e
  change IntOp.andi _ _ = 1#1 at e
  obtain ⟨e, e2⟩ := IntOp.andi_eq_one.1 e
  exact ⟨inRange_of_all 300000 (by decide) a2 _ _ (fun _ => rfl) (fun _ => rfl) _ _ _ e2,
    inRange_of_all 100000 (by decide) a5 _ _ (fun _ => rfl) (fun _ => rfl) _ _ _ e5,
    inRange_of_all 200000 (by decide) a6 _ _ (fun _ => rfl) (fun _ => rfl) _ _ _ e6,
    inRange_of_all 200000 (by decide) a7 _ _ (fun _ => rfl) (fun _ => rfl) _ _ _ e7⟩

/-! ## The fill that fills nothing -/

/-- A typed reference's two transports, one after the other, are the identity. -/
theorem ofBuf_toBuf {T : BufTy} {Val : EltTy → Type} (x : TRef sig T) (v : T.Contents Val) : x.ofBuf (x.toBuf v) = v := by
  obtain ⟨r, e, h1, h2⟩ := x
  subst e
  rfl

/-- A fold of "and" that starts at 1 and meets only 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- An "and"-reduction from 1 of an array of 1s is 1 everywhere. -/
theorem reduce_andi_ones {s t u : Shape} {axes : List (Fin s.rank)} (x : s.Idx → BitVec 1) (init : u.Idx → BitVec 1)
    (hr : s.ReducesTo axes t) (hu : 0 < u.numel) (hx : ∀ i, x i = 1#1) (hi : ∀ k, init k = 1#1) (j : t.Idx) :
    Host.reduce IntOp.andi x init hr hu j = 1#1 := by
  rw [Host.reduce_eq_foldl, hi]
  exact foldl_andi_ones x hx _

/-- A word below a small n, read signed, is at least 0 and at most the word of n − 1. -/
theorem word_checks (w hiw : BitVec 32) (n : Nat) (hn : n < 2 ^ 31) (hhi : hiw.toNat + 1 = n) (hw : w.toNat < n) :
    IntOp.andi (IntOp.cmpi .sge w 0#32) (IntOp.cmpi .sle w hiw) = 1#1 :=
  IntOp.andi_eq_one.2 ⟨(Predicate.sge_iff_toNat (by omega) (by decide)).2 (Nat.zero_le _),
    (Predicate.sle_iff_toNat (by omega) (by omega)).2 (by omega)⟩

/-- A word below a small n is not negative, so counting it from the end leaves it as it is. -/
theorem word_wrap (w nw : BitVec 32) (n : Nat) (hn : n < 2 ^ 31) (hw : w.toNat < n) :
    Scalar.select (IntOp.cmpi .slt w 0#32) (IntOp.addi w nw) w = w := by
  have hne : ¬ IntOp.cmpi .slt w 0#32 = 1#1 := fun e => by
    have := (Predicate.slt_iff_toNat (a := w) (b := 0#32) (by omega) (by decide)).1 e
    simp at this
  exact if_neg hne

/-- The wrapped index vector of an in-range index vector is in range. -/
theorem wrapped_lt {s : Shape} (n : Nat) (hn : n < 2 ^ 31) (idx z nn : IVec s 32) (hz : ∀ i, z i = 0#32)
    (h : InRange n idx) (k : s.Idx) : (select (cmpi .slt idx z) (addi idx nn) idx k).toNat < n := by
  show (Scalar.select (IntOp.cmpi .slt (idx k) (z k)) (IntOp.addi (idx k) (nn k)) (idx k)).toNat < n
  rw [hz, word_wrap _ _ n hn (h k)]
  exact h k

/-- THE FILL THAT FILLS NOTHING. When every wrapped row number is inside the table, the per-row "and" of the two bound
    checks is 1 on every row, so the select between the gathered rows and the fill value keeps the gathered rows. -/
theorem select_checked {α : Type} {sc sv so u : Shape} {axes : List (Fin sc.rank)} (n : Nat) (hiw : BitVec 32)
    (hn : n < 2 ^ 31) (hhi : hiw.toNat + 1 = n) (col zero hi : IVec sc 32) (hz : ∀ i, zero i = 0#32)
    (hh : ∀ i, hi i = hiw) (hcol : ∀ i, (col i).toNat < n) (init : IVec u 1) (hinit : ∀ k, init k = 1#1)
    (hr : sc.ReducesTo axes sv) (hu : 0 < u.numel) (dims : Fin sv.rank → Fin so.rank) (hb : sv.BroadcastsInDim so dims)
    (g f : so.Idx → α) :
    select (broadcastInDim so dims hb (Host.reduce IntOp.andi (andi (cmpi .sge col zero) (cmpi .sle col hi)) init hr hu)) g f
      = g := by
  funext j
  have hm : broadcastInDim so dims hb (Host.reduce IntOp.andi (andi (cmpi .sge col zero) (cmpi .sle col hi)) init hr hu) j
      = 1#1 := by
    unfold broadcastInDim
    refine reduce_andi_ones _ init hr hu (fun i => ?_) hinit _
    show IntOp.andi (IntOp.cmpi .sge (col i) (zero i)) (IntOp.cmpi .sle (col i) (hi i)) = 1#1
    rw [hz, hh]
    exact word_checks _ hiw n hn hhi (hcol i)
  rw [ValueIdx.select_apply, hm]
  exact ValueIdx.select_one _ _

/-! ## The six stretches

Each stretch's value is read off its operations: wrap the row numbers, lay them out as a column, gather, check the
column against the table's bounds row by row, and select between the gathered rows and the fill value. With the row
numbers in range the checks all pass, and what is left is the gather of the wrapped column. -/

/-- With every source in range nothing is filled in: the first gather of the node table is the plain one. -/
theorem take_edges0 (W : Valuation τ sig (Elt Ideal)) (h : InRange 300000 (W (Proc.devRef .tc main_arg2))) :
    StableHlo.after (hostOps0_1 (F := Ideal)) W (Proc.devRef .tc main_v2)
      = Cert.Chain.rowsE (W (Proc.devRef .tc main_v0)) (W (Proc.devRef .tc main_arg2)) := by
  show StableHlo.after hostOps0_1 W (Proc.devRef .tc main_v2) = _
  after_results_simp
  simp only [ofBuf_toBuf]
  have ei : (.of main_arg2 : TRef sig ⟨S4000000, .i32⟩).ofBuf (W (Proc.devRef .tc main_arg2))
      = W (Proc.devRef .tc main_arg2) := rfl
  have et : (.of main_v0 : TRef sig ⟨S300000x64, .f32⟩).ofBuf (W (Proc.devRef .tc main_v0))
      = W (Proc.devRef .tc main_v0) := rfl
  have eo : ∀ v : FVec Ideal S4000000x64 .f32,
      (.of main_v2 : TRef sig ⟨S4000000x64, .f32⟩).toBuf (Val := Elt Ideal) v = v := fun _ => rfl
  rw [ei, et, eo]
  unfold Cert.Chain.rowsE Cert.Chain.colE
  refine select_checked 300000 299999#32 (by decide) (by decide) _ _ _ ?_ ?_ ?_ _ ?_ _ _ _ _ _ _
  · exact fun _ => rfl
  · exact fun _ => rfl
  · exact fun i => wrapped_lt 300000 (by decide) _ _ _ (fun _ => rfl) h _
  · exact fun _ => rfl

/-- The second gather, of the once-propagated table. -/
theorem take_edges1 (W : Valuation τ sig (Elt Ideal)) (h : InRange 300000 (W (Proc.devRef .tc main_arg2))) :
    StableHlo.after (hostOps2 (F := Ideal)) W (Proc.devRef .tc main_v8)
      = Cert.Chain.rowsE (W (Proc.devRef .tc main_v6)) (W (Proc.devRef .tc main_arg2)) := by
  show StableHlo.after hostOps2 W (Proc.devRef .tc main_v8) = _
  after_results_simp
  simp only [ofBuf_toBuf]
  have ei : (.of main_arg2 : TRef sig ⟨S4000000, .i32⟩).ofBuf (W (Proc.devRef .tc main_arg2))
      = W (Proc.devRef .tc main_arg2) := rfl
  have et : (.of main_v6 : TRef sig ⟨S300000x64, .f32⟩).ofBuf (W (Proc.devRef .tc main_v6))
      = W (Proc.devRef .tc main_v6) := rfl
  have eo : ∀ v : FVec Ideal S4000000x64 .f32,
      (.of main_v8 : TRef sig ⟨S4000000x64, .f32⟩).toBuf (Val := Elt Ideal) v = v := fun _ => rfl
  rw [ei, et, eo]
  unfold Cert.Chain.rowsE Cert.Chain.colE
  refine select_checked 300000 299999#32 (by decide) (by decide) _ _ _ ?_ ?_ ?_ _ ?_ _ _ _ _ _ _
  · exact fun _ => rfl
  · exact fun _ => rfl
  · exact fun i => wrapped_lt 300000 (by decide) _ _ _ (fun _ => rfl) h _
  · exact fun _ => rfl

/-- The third gather, of the twice-propagated table. -/
theorem take_edges2 (W : Valuation τ sig (Elt Ideal)) (h : InRange 300000 (W (Proc.devRef .tc main_arg2))) :
    StableHlo.after (hostOps4 (F := Ideal)) W (Proc.devRef .tc main_v14)
      = Cert.Chain.rowsE (W (Proc.devRef .tc main_v12)) (W (Proc.devRef .tc main_arg2)) := by
  show StableHlo.after hostOps4 W (Proc.devRef .tc main_v14) = _
  after_results_simp
  simp only [ofBuf_toBuf]
  have ei : (.of main_arg2 : TRef sig ⟨S4000000, .i32⟩).ofBuf (W (Proc.devRef .tc main_arg2))
      = W (Proc.devRef .tc main_arg2) := rfl
  have et : (.of main_v12 : TRef sig ⟨S300000x64, .f32⟩).ofBuf (W (Proc.devRef .tc main_v12))
      = W (Proc.devRef .tc main_v12) := rfl
  have eo : ∀ v : FVec Ideal S4000000x64 .f32,
      (.of main_v14 : TRef sig ⟨S4000000x64, .f32⟩).toBuf (Val := Elt Ideal) v = v := fun _ => rfl
  rw [ei, et, eo]
  unfold Cert.Chain.rowsE Cert.Chain.colE
  refine select_checked 300000 299999#32 (by decide) (by decide) _ _ _ ?_ ?_ ?_ _ ?_ _ _ _ _ _ _
  · exact fun _ => rfl
  · exact fun _ => rfl
  · exact fun i => wrapped_lt 300000 (by decide) _ _ _ (fun _ => rfl) h _
  · exact fun _ => rfl

/-- The sampled users' rows. -/
theorem take_users (W : Valuation τ sig (Elt Ideal)) (h : InRange 100000 (W (Proc.devRef .tc main_arg5))) :
    StableHlo.after (hostOps7_1 (F := Ideal)) W (Proc.devRef .tc main_v23)
      = Cert.Chain.rowsU (W (Proc.devRef .tc main_v21)) (W (Proc.devRef .tc main_arg5)) := by
  show StableHlo.after hostOps7_1 W (Proc.devRef .tc main_v23) = _
  after_results_simp
  simp only [ofBuf_toBuf]
  have ei : (.of main_arg5 : TRef sig ⟨S8192, .i32⟩).ofBuf (W (Proc.devRef .tc main_arg5))
      = W (Proc.devRef .tc main_arg5) := rfl
  have et : (.of main_v21 : TRef sig ⟨S100000x64, .f32⟩).ofBuf (W (Proc.devRef .tc main_v21))
      = W (Proc.devRef .tc main_v21) := rfl
  have eo : ∀ v : FVec Ideal S8192x64 .f32,
      (.of main_v23 : TRef sig ⟨S8192x64, .f32⟩).toBuf (Val := Elt Ideal) v = v := fun _ => rfl
  rw [ei, et, eo]
  unfold Cert.Chain.rowsU Cert.Chain.colB
  refine select_checked 100000 99999#32 (by decide) (by decide) _ _ _ ?_ ?_ ?_ _ ?_ _ _ _ _ _ _
  · exact fun _ => rfl
  · exact fun _ => rfl
  · exact fun i => wrapped_lt 100000 (by decide) _ _ _ (fun _ => rfl) h _
  · exact fun _ => rfl

/-- The sampled positive items' rows. -/
theorem take_pos (W : Valuation τ sig (Elt Ideal)) (h : InRange 200000 (W (Proc.devRef .tc main_arg6))) :
    StableHlo.after (hostOps7_2 (F := Ideal)) W (Proc.devRef .tc main_v24)
      = Cert.Chain.rowsI (W (Proc.devRef .tc main_v22)) (W (Proc.devRef .tc main_arg6)) := by
  show StableHlo.after hostOps7_2 W (Proc.devRef .tc main_v24) = _
  after_results_simp
  simp only [ofBuf_toBuf]
  have ei : (.of main_arg6 : TRef sig ⟨S8192, .i32⟩).ofBuf (W (Proc.devRef .tc main_arg6))
      = W (Proc.devRef .tc main_arg6) := rfl
  have et : (.of main_v22 : TRef sig ⟨S200000x64, .f32⟩).ofBuf (W (Proc.devRef .tc main_v22))
      = W (Proc.devRef .tc main_v22) := rfl
  have eo : ∀ v : FVec Ideal S8192x64 .f32,
      (.of main_v24 : TRef sig ⟨S8192x64, .f32⟩).toBuf (Val := Elt Ideal) v = v := fun _ => rfl
  rw [ei, et, eo]
  unfold Cert.Chain.rowsI Cert.Chain.colB
  refine select_checked 200000 199999#32 (by decide) (by decide) _ _ _ ?_ ?_ ?_ _ ?_ _ _ _ _ _ _
  · exact fun _ => rfl
  · exact fun _ => rfl
  · exact fun i => wrapped_lt 200000 (by decide) _ _ _ (fun _ => rfl) h _
  · exact fun _ => rfl

/-- The sampled negative items' rows. -/
theorem take_neg (W : Valuation τ sig (Elt Ideal)) (h : InRange 200000 (W (Proc.devRef .tc main_arg7))) :
    StableHlo.after (hostOps7_3 (F := Ideal)) W (Proc.devRef .tc main_v25)
      = Cert.Chain.rowsI (W (Proc.devRef .tc main_v22)) (W (Proc.devRef .tc main_arg7)) := by
  show StableHlo.after hostOps7_3 W (Proc.devRef .tc main_v25) = _
  after_results_simp
  simp only [ofBuf_toBuf]
  have ei : (.of main_arg7 : TRef sig ⟨S8192, .i32⟩).ofBuf (W (Proc.devRef .tc main_arg7))
      = W (Proc.devRef .tc main_arg7) := rfl
  have et : (.of main_v22 : TRef sig ⟨S200000x64, .f32⟩).ofBuf (W (Proc.devRef .tc main_v22))
      = W (Proc.devRef .tc main_v22) := rfl
  have eo : ∀ v : FVec Ideal S8192x64 .f32,
      (.of main_v25 : TRef sig ⟨S8192x64, .f32⟩).toBuf (Val := Elt Ideal) v = v := fun _ => rfl
  rw [ei, et, eo]
  unfold Cert.Chain.rowsI Cert.Chain.colB
  refine select_checked 200000 199999#32 (by decide) (by decide) _ _ _ ?_ ?_ ?_ _ ?_ _ _ _ _ _ _
  · exact fun _ => rfl
  · exact fun _ => rfl
  · exact fun i => wrapped_lt 200000 (by decide) _ _ _ (fun _ => rfl) h _
  · exact fun _ => rfl

end Cert.KernelIdeal.Takes

end
-- ==== Proof.Weigh0.lean ====
/-
  One weighting launch read as a whole. The launch walks 400 blocks of 10000 edges; at each it loads a block of gathered
  rows and the same edges' weights (a column), stores row times weight, lane by lane, and writes the block back. Block
  t of every window is rows 10000 t … 10000 t + 9999 of its array, and the blocks cover the array, so after the launch
  the message array is, at every edge and lane, the gathered row's entry times the edge's weight.
-/
import proofs.«426244_j67757404061704_2_alg».proof.Proof.Gen.KernelIdeal.Frame
import proofs.«426244_j67757404061704_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Weigh0

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- The body's one store starts at row zero and lane zero of its block. -/
theorem zero_offsets : (![0, 0] : Fin 2 → Nat) = fun _ => 0 := funext fun a => by fin_cases a <;> rfl

/-- A column `[a, 1]` broadcast along the lanes to `[a, b]` reads, at `(p, q)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored value at row `p`, lane `q` of a block: the gathered block's entry there times the weight block's entry of row `p`. -/
theorem payload_apply (xg : Vec Ideal S10000x64 .f32) (xw : Vec Ideal S10000x1 .f32) (p : Fin 10000) (q : Fin 64) :
    k0_pay1 xg xw (ix2 p q) = xg (ix2 p q) * xw (ix2 p (0 : Fin 1)) := by
  unfold k0_pay1
  rw [mulf_apply, shapeCast_self, shapeCast_self, broadcastTo_column_apply]

/-- The same at any index of the block: the weight is read at the index's row. -/
theorem payload_at (xg : Vec Ideal S10000x64 .f32) (xw : Vec Ideal S10000x1 .f32) (j : S10000x64.Idx) :
    k0_pay1 xg xw j = xg j * xw (ix2 (n0 := 10000) (n1 := 1) (j 0) 0) := by
  obtain ⟨p, q, rfl⟩ : ∃ (p : Fin 10000) (q : Fin 64), j = ix2 p q := ⟨j 0, j 1, eq_ix2 j⟩
  exact payload_apply xg xw p q

/-- An entry of the gathered array times an entry of the weight column is the weighted array's entry at an index, when
    the first is read at that index and the second at that index's row. -/
theorem weighted_of_eq (g : S4000000x64.Idx → EReal) (v : S4000000x1.Idx → EReal) (k i : S4000000x64.Idx) (r : S4000000x1.Idx)
    (hk : k = i) (hr : r = ix2 (n0 := 4000000) (n1 := 1) (i 0) 0) : g k * v r = Cert.Forms.weighted g v i := by
  subst hk hr; rfl

/-- Where each window's block sits at point `t`: all three at row block `t`, lane block zero. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the weighted array: the gathered block and the weight block it
    loaded are the same rows of their arrays as the rows of the output block. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Forms.weighted (V c main_v2) (V c main_v1)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S10000x1) zero_offsets]
  obtain ⟨eg, eg', ew, ew', eo, eo'⟩ := index_facts t
  funext j
  show k0_pay1 (iblk0 V c 0 t) (iblk0 V c 1 t) j = _
  rw [payload_at]
  have hg : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have hw : ((cfg0.win 1).blk t).view.emb (ix2 (n0 := 10000) (n1 := 1) (j 0) 0)
      = ix2 (n0 := 4000000) (n1 := 1) ((((cfg0.win 2).blk t).view.emb j) 0) 0 := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  exact weighted_of_eq (V c main_v2) (V c main_v1) (((cfg0.win 0).blk t).view.emb j) (((cfg0.win 2).blk t).view.emb j)
    (((cfg0.win 1).blk t).view.emb (ix2 (n0 := 10000) (n1 := 1) (j 0) 0)) hg hw

/-- An index of the array is in point `t`'s block iff each coordinate is in the block's range on its axis. -/
theorem mem_blk (t : Fin cfg0.N) (i : S4000000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v3).slice (win0_2.rect t)).set ↔ _
  rw [View.set_slice_whole, Rect.mem_set_unit]
  exact Iff.rfl

/-- Every index of the array is in some point's block: row `r` is in the block of point `r / 10000`, and one
    block spans all 64 lanes. -/
theorem covered (i : S4000000x64.Idx) :
    ∃ t : Fin cfg0.N, (cfg0.win 2).flush t = true ∧ i ∈ ((cfg0.win 2).blk t).view.set := by
  have hrow : (i 0).val < 4000000 := (i 0).isLt
  have hlane : (i 1).val < 64 := (i 1).isLt
  have hN : cfg0.N = 400 := N_0
  obtain ⟨t, ht⟩ : ∃ t : Fin cfg0.N, t.val = (i 0).val / 10000 := ⟨⟨(i 0).val / 10000, by rw [hN]; omega⟩, rfl⟩
  obtain ⟨-, -, -, -, eo, eo'⟩ := index_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After a weighting launch the message array holds, at every edge and lane, the gathered row's entry times the edge's weight. -/
theorem final (V : (c : Dev nD) → (b : Ref sig .tc) → Buf (Elt Ideal) ((c : Thread nD τ).loc b)) (c : Dev nD) :
    (dat0 (F := Ideal) V c).arrAt 2 cfg0.N = Cert.Forms.weighted (V c main_v2) (V c main_v1) :=
  (dat0 (F := Ideal) V c).arrAt_eq_of_cover 2 (Cert.Forms.weighted (V c main_v2) (V c main_v1))
    (fun t _ => flushed_eq V c t) covered

end Cert.KernelIdeal.Weigh0

end
-- ==== Proof.Accum1.lean ====
/-
  One accumulation launch read as a whole. The launch walks 25 blocks of 12000 nodes; at each it loads the same block
  of its two operand tables, stores their entrywise sum and writes the block back. Block t of every window is rows
  12000 t … 12000 t + 11999, and the blocks cover the table, so after the launch the result is the entrywise sum of
  the two operand tables.
-/
import proofs.«426244_j67757404061704_2_alg».proof.Proof.Gen.KernelIdeal.Frame
import proofs.«426244_j67757404061704_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Accum1

open Idealize.ShloMosaic Idealize.ShloMosaic.TcCoe Idealize.SL.Sem
open Idealize.ShloMosaic.Pipeline (Dat Cfg Window)
open Cert.KernelIdeal Cert.KernelIdeal.Gen

section Blocks

variable (V : (c : Dev nD) → (b : Ref sig .tc) → Buf (Elt Ideal) ((c : Thread nD τ).loc b))

/-- The body's one store starts at the corner of its buffer: both offsets are zero. -/
theorem corner : (![0, 0] : Fin 2 → Nat) = fun _ => 0 := funext fun a => by fin_cases a <;> rfl

/-- The sum of two extended reals, the operands' type spelt out. -/
abbrev plus (x y : EReal) : EReal := x + y

/-- What the body stores is the entrywise sum of the two blocks it loaded (the two casts keep the shape, so they
    change nothing). -/
theorem stored_eq (x y : Vec Ideal S12000x64 .f32) : k1_pay1 x y = addf x y := by
  unfold k1_pay1
  simp only [shapeCast_self]

/-- Where the blocks sit: at grid point `t` every one of the three windows is at block row `t`, block column `0`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the entrywise sum of the two operand arrays as the launch finds
    them: the two input blocks and the output block are the same rows `12000 t … 12000 t + 11999` of their arrays. -/
theorem flushed_eq (c : Dev nD) (t : Fin cfg1.N) :
    (dat1 (F := Ideal) V c).flushed 2 t
      = ((cfg1.win 2).blk t).view.read (Elt Ideal) (Cert.Forms.summed (V c main_v0) (V c main_v6)) := by
  show (cfg1.win 2).cut (grid1.coords t) ((dat1 (F := Ideal) V c).after 2 t) = _
  rw [after1_2]
  unfold out1_2
  rw [View.canon_unit_zero corner]
  simp only [View.ld_unit_zero (S := S12000x64) corner]
  rw [stored_eq]
  obtain ⟨a0, a1, b0, b1, o0, o1⟩ := block_index t
  funext j
  show plus (V c main_v0 (((cfg1.win 0).blk t).view.emb j)) (V c main_v6 (((cfg1.win 1).blk t).view.emb j))
    = plus (V c main_v0 (((cfg1.win 2).blk t).view.emb j)) (V c main_v6 (((cfg1.win 2).blk t).view.emb j))
  -- an entry of a block sits at block index × block size + its place inside the block, axis by axis
  have hj0 : (j 0).val < 12000 := (j 0).isLt
  have hj1 : (j 1).val < 64 := (j 1).isLt
  have hfst : ((cfg1.win 0).blk t).view.emb j = ((cfg1.win 2).blk t).view.emb j := by
    funext a; apply Fin.ext
    match a with
    | ⟨0, _⟩ => show win1_0.index t (0 : Fin 2) * 12000 + 1 * (j 0).val = win1_2.index t (0 : Fin 2) * 12000 + 1 * (j 0).val; omega
    | ⟨1, _⟩ => show win1_0.index t (1 : Fin 2) * 64 + 1 * (j 1).val = win1_2.index t (1 : Fin 2) * 64 + 1 * (j 1).val; omega
  have hsnd : ((cfg1.win 1).blk t).view.emb j = ((cfg1.win 2).blk t).view.emb j := by
    funext a; apply Fin.ext
    match a with
    | ⟨0, _⟩ => show win1_1.index t (0 : Fin 2) * 12000 + 1 * (j 0).val = win1_2.index t (0 : Fin 2) * 12000 + 1 * (j 0).val; omega
    | ⟨1, _⟩ => show win1_1.index t (1 : Fin 2) * 64 + 1 * (j 1).val = win1_2.index t (1 : Fin 2) * 64 + 1 * (j 1).val; omega
  rw [hfst, hsnd]

/-- An entry of the array lies in point `t`'s output block exactly when, on each axis, its coordinate is within the
    block's range there. -/
theorem mem_block (t : Fin cfg1.N) (i : S300000x64.Idx) :
    i ∈ ((cfg1.win 2).blk t).view.set
      ↔ ∀ a : Fin 2, win1_2.index t a * S12000x64.size a ≤ (i a).val
          ∧ (i a).val < win1_2.index t a * S12000x64.size a + S12000x64.size a := by
  show i ∈ ((View.whole main_v7).slice (win1_2.rect t)).set ↔ _
  rw [View.set_slice_whole, Rect.mem_set_unit]
  exact Iff.rfl

/-- Every entry is written back by some point: row `r` belongs to point `r / 12000` (25 blocks of 12000 rows are
    the 300000 rows; the 64 columns are one block wide). -/
theorem covered (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  have hN : cfg1.N = 25 := N_1
  obtain ⟨t, ht⟩ : ∃ t : Fin cfg1.N, t.val = (i 0).val / 12000 := ⟨⟨(i 0).val / 12000, by omega⟩, rfl⟩
  obtain ⟨-, -, -, -, o0, o1⟩ := block_index t
  refine ⟨t, flush1_2 t, ?_⟩
  rw [mem_block]
  intro a
  match a with
  | ⟨0, _⟩ => show win1_2.index t (0 : Fin 2) * 12000 ≤ (i 0).val ∧ (i 0).val < win1_2.index t (0 : Fin 2) * 12000 + 12000; omega
  | ⟨1, _⟩ => show win1_2.index t (1 : Fin 2) * 64 ≤ (i 1).val ∧ (i 1).val < win1_2.index t (1 : Fin 2) * 64 + 64; omega

end Blocks

/-- After an accumulation launch the running sum holds, entry by entry, the sum of its two operands. -/
theorem final (V : (c : Dev nD) → (b : Ref sig .tc) → Buf (Elt Ideal) ((c : Thread nD τ).loc b)) (c : Dev nD) :
    (dat1 (F := Ideal) V c).arrAt 2 cfg1.N = Cert.Forms.summed (V c main_v0) (V c main_v6) :=
  (dat1 (F := Ideal) V c).arrAt_eq_of_cover 2 (Cert.Forms.summed (V c main_v0) (V c main_v6))
    (fun t _ => flushed_eq V c t) covered

end Cert.KernelIdeal.Accum1

end
-- ==== Proof.Scale6.lean ====
/-
  The scaling launch read as a whole. The launch walks 25 blocks of 12000 nodes; at each it loads a block of the
  running sum, multiplies every entry by the float whose word denotes exactly 2⁻², and writes the block back. The
  blocks cover the table, so after the launch the result is a quarter of the running sum, entry by entry.
-/
import proofs.«426244_j67757404061704_2_alg».proof.Proof.Gen.KernelIdeal.Frame
import proofs.«426244_j67757404061704_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scale6

open Idealize.ShloMosaic Idealize.ShloMosaic.TcCoe Idealize.SL.Sem
open Idealize.ShloMosaic.Pipeline (Dat Cfg Window)
open Cert.KernelIdeal Cert.KernelIdeal.Gen

section Blocks

variable (V : (c : Dev nD) → (b : Ref sig .tc) → Buf (Elt Ideal) ((c : Thread nD τ).loc b))

/-- The body's one store starts at the corner of its buffer: both offsets are zero. -/
theorem corner : (![0, 0] : Fin 2 → Nat) = fun _ => 0 := funext fun a => by fin_cases a <;> rfl

/-- The product of two extended reals, the operands' type spelt out. -/
abbrev times (x y : EReal) : EReal := x * y

/-- The scaling constant: a positive word with exponent field 125 and fraction 0 denotes 2^23 · 2^(125 − 127 − 23),
    which is a quarter. -/
theorem quarter_word : Ideal.ofBits .f32 0x3E800000#32 = ((1 / 4 : ℝ) : EReal) := by
  simp [Ideal.ofBits, Ideal.ieee, -EReal.coe_mul]; norm_num

/-- What the body stores is the block it loaded with every entry multiplied by a quarter (the cast keeps the shape,
    so it changes nothing; the constant is the same at every entry). -/
theorem stored_eq (x : Vec Ideal S12000x64 .f32) :
    k6_pay1 x = fun j => times (x j) ((1 / 4 : ℝ) : EReal) := by
  unfold k6_pay1
  simp only [shapeCast_self]
  funext j
  show times (x j) (Ideal.ofBits .f32 0x3E800000#32) = _
  rw [quarter_word]

/-- Where the blocks sit: at grid point `t` both windows are at block row `t`, block column `0`. -/
theorem block_index : ∀ t : Fin cfg6.N,
    win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- What point `t` writes back is block `t` of a quarter of the operand array as the launch finds it: the input
    block and the output block are the same rows `12000 t … 12000 t + 11999` of their arrays. -/
theorem flushed_eq (c : Dev nD) (t : Fin cfg6.N) :
    (dat6 (F := Ideal) V c).flushed 1 t
      = ((cfg6.win 1).blk t).view.read (Elt Ideal) (Cert.Forms.quartered (V c main_v19)) := by
  show (cfg6.win 1).cut (grid6.coords t) ((dat6 (F := Ideal) V c).after 1 t) = _
  rw [after6_1]
  unfold out6_1
  rw [View.canon_unit_zero corner]
  simp only [View.ld_unit_zero (S := S12000x64) corner]
  rw [stored_eq]
  obtain ⟨a0, a1, o0, o1⟩ := block_index t
  funext j
  show times (V c main_v19 (((cfg6.win 0).blk t).view.emb j)) ((1 / 4 : ℝ) : EReal)
    = times (V c main_v19 (((cfg6.win 1).blk t).view.emb j)) ((1 / 4 : ℝ) : EReal)
  -- an entry of a block sits at block index × block size + its place inside the block, axis by axis
  have hj0 : (j 0).val < 12000 := (j 0).isLt
  have hj1 : (j 1).val < 64 := (j 1).isLt
  have hsrc : ((cfg6.win 0).blk t).view.emb j = ((cfg6.win 1).blk t).view.emb j := by
    funext a; apply Fin.ext
    match a with
    | ⟨0, _⟩ => show win6_0.index t (0 : Fin 2) * 12000 + 1 * (j 0).val = win6_1.index t (0 : Fin 2) * 12000 + 1 * (j 0).val; omega
    | ⟨1, _⟩ => show win6_0.index t (1 : Fin 2) * 64 + 1 * (j 1).val = win6_1.index t (1 : Fin 2) * 64 + 1 * (j 1).val; omega
  rw [hsrc]

/-- An entry of the array lies in point `t`'s output block exactly when, on each axis, its coordinate is within the
    block's range there. -/
theorem mem_block (t : Fin cfg6.N) (i : S300000x64.Idx) :
    i ∈ ((cfg6.win 1).blk t).view.set
      ↔ ∀ a : Fin 2, win6_1.index t a * S12000x64.size a ≤ (i a).val
          ∧ (i a).val < win6_1.index t a * S12000x64.size a + S12000x64.size a := by
  show i ∈ ((View.whole main_v20).slice (win6_1.rect t)).set ↔ _
  rw [View.set_slice_whole, Rect.mem_set_unit]
  exact Iff.rfl

/-- Every entry is written back by some point: row `r` belongs to point `r / 12000` (25 blocks of 12000 rows are
    the 300000 rows; the 64 columns are one block wide). -/
theorem covered (i : S300000x64.Idx) :
    ∃ t : Fin cfg6.N, (cfg6.win 1).flush t = true ∧ i ∈ ((cfg6.win 1).blk t).view.set := by
  have hi0 : (i 0).val < 300000 := (i 0).isLt
  have hi1 : (i 1).val < 64 := (i 1).isLt
  have hN : cfg6.N = 25 := N_6
  obtain ⟨t, ht⟩ : ∃ t : Fin cfg6.N, t.val = (i 0).val / 12000 := ⟨⟨(i 0).val / 12000, by omega⟩, rfl⟩
  obtain ⟨-, -, o0, o1⟩ := block_index t
  refine ⟨t, flush6_1 t, ?_⟩
  rw [mem_block]
  intro a
  match a with
  | ⟨0, _⟩ => show win6_1.index t (0 : Fin 2) * 12000 ≤ (i 0).val ∧ (i 0).val < win6_1.index t (0 : Fin 2) * 12000 + 12000; omega
  | ⟨1, _⟩ => show win6_1.index t (1 : Fin 2) * 64 ≤ (i 1).val ∧ (i 1).val < win6_1.index t (1 : Fin 2) * 64 + 64; omega

end Blocks

/-- After the scaling launch the layer mean holds a quarter of the running sum, entry by entry. -/
theorem final (V : (c : Dev nD) → (b : Ref sig .tc) → Buf (Elt Ideal) ((c : Thread nD τ).loc b)) (c : Dev nD) :
    (dat6 (F := Ideal) V c).arrAt 1 cfg6.N = Cert.Forms.quartered (V c main_v19) :=
  (dat6 (F := Ideal) V c).arrAt_eq_of_cover 1 (Cert.Forms.quartered (V c main_v19))
    (fun t _ => flushed_eq V c t) covered

end Cert.KernelIdeal.Scale6

end
-- ==== Proof.Loss7.lean ====
/-
  The scoring launch read as a whole. The launch walks 8 blocks of 1024 sampled triples and carries one number from
  block to block: zero before the first block; after each block the number plus that block's total cost, a triple's
  cost being softplus of its negative score minus its positive score and a score the dot product of two 64-wide rows;
  after the last block, that total times the float whose word denotes exactly 2⁻¹³. Row r of block t is triple
  1024 t + r, so the eight block totals regroup the sum over all 8192 triples (sums of extended reals may be regrouped
  freely), and the one entry written back at the end is the mean cost.
-/
import proofs.«426244_j67757404061704_2_alg».proof.Proof.Gen.KernelIdeal.Frame
import proofs.«426244_j67757404061704_2_alg».proof.Proof.Forms
import Idealize.ShloMosaic.Lib.Pipeline.Value
import Idealize.ShloMosaic.Lib.ValueIdx
import Idealize.ShloMosaic.Lib.ValueLayout
import Idealize.ShloMosaic.PureOps.Ideal.Laws

set_option maxRecDepth 16384

/-
  The scoring launch, read as a value. Eight points; at point t the three input blocks are rows 1024 t … 1024 t + 1023
  of the users', positive items' and negative items' [8192, 64] arrays. The one-entry output block is carried from point
  to point: zeroed at point 0, increased at every point by the sum over the block's rows of
  softplus (negative score − positive score), a score being a row dot product, and multiplied by 1/8192 after the last
  addition. So after point t it holds the cost of rows 0 … 1024 (t + 1) − 1, and after point 7 the mean cost of all
  8192 triples, which is what is written back.
-/

noncomputable section

namespace Cert.KernelIdeal.Loss7

open Idealize.ShloMosaic Idealize.ShloMosaic.TcCoe Idealize.SL.Sem
open Idealize.ShloMosaic.Pipeline (Dat Cfg Window)
open Cert.KernelIdeal Cert.KernelIdeal.Gen

section Pieces
variable {F : FTy → Type} [FloatOps F]

theorem hz : (![0, 0] : Fin 2 → Nat) = fun _ => 0 := funext fun a => by fin_cases a <;> rfl

/-- At a middle point the one store leaves the running value plus the block's cost. -/
theorem out_B (c : Dev nD) (i : grid7.Coords)
    (a1 : Memref sig .tc .vmem S1024x64 .f32) (h1 : a1.IsWhole) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (hc0 : ¬cond7_0 i) (hc1 : ¬cond7_1 i) (x0 x1 x2 : Vec F S1024x64 .f32) (xo : Vec F S1x1 .f32) :
    out7_B_3 c i a1 h1 a2 h2 a3 h3 a4 h4 hc0 hc1 x0 x1 x2 xo = k7_pay3 x0 x1 x2 xo := by
  unfold out7_B_3
  rw [View.read_writes_eq_canon _ _ _ (cover7_B_3 c i a1 h1 a2 h2 a3 h3 a4 h4 hc0 hc1 x0 x1 x2 xo)]
  unfold kernelRun7_B
  dsimp only
  sl_unfold_words
  rw [View.canon_unit_zero hz]
  simp only [View.readAt_eq_ld, h1.read_unread, h2.read_unread, h3.read_unread, h4.read_unread,
    View.ld_unit_zero (S := S1024x64) hz, View.ld_unit_zero (S := S1x1) hz]

/-- At the first point the zero is stored first, read back, and the block's cost added to it. -/
theorem out_A (c : Dev nD) (i : grid7.Coords)
    (a1 : Memref sig .tc .vmem S1024x64 .f32) (h1 : a1.IsWhole) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (hc0 : cond7_0 i) (hc1 : ¬cond7_1 i) (x0 x1 x2 : Vec F S1024x64 .f32) :
    out7_A_3 c i a1 h1 a2 h2 a3 h3 a4 h4 hc0 hc1 x0 x1 x2 = k7_pay3 x0 x1 x2 (k7_pay2 (F := F)) := by
  unfold out7_A_3
  rw [View.read_writes_eq_canon _ _ _ (cover7_A_3 c i a1 h1 a2 h2 a3 h3 a4 h4 hc0 hc1 x0 x1 x2)]
  unfold kernelRun7_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S1024x64) hz]

/-- At the last point the sum is stored, read back, and its scaled value stored over it. -/
theorem out_C (c : Dev nD) (i : grid7.Coords)
    (a1 : Memref sig .tc .vmem S1024x64 .f32) (h1 : a1.IsWhole) (a2 : Memref sig .tc .vmem S1024x64 .f32) (h2 : a2.IsWhole)
    (a3 : Memref sig .tc .vmem S1024x64 .f32) (h3 : a3.IsWhole) (a4 : Memref sig .tc .vmem S1x1 .f32) (h4 : a4.IsWhole)
    (hc0 : ¬cond7_0 i) (hc1 : cond7_1 i) (x0 x1 x2 : Vec F S1024x64 .f32) (xo : Vec F S1x1 .f32) :
    out7_C_3 c i a1 h1 a2 h2 a3 h3 a4 h4 hc0 hc1 x0 x1 x2 xo = k7_pay1 (k7_pay3 x0 x1 x2 xo) := by
  unfold out7_C_3
  rw [View.read_writes_eq_canon _ _ _ (cover7_C_3 c i a1 h1 a2 h2 a3 h3 a4 h4 hc0 hc1 x0 x1 x2 xo)]
  unfold kernelRun7_C
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S1024x64) hz, View.ld_unit_zero (S := S1x1) hz]

end Pieces

/-! ## The arithmetic of one block, over the extended reals -/

section Arith
open Cert.Forms Idealize.ShloMosaic.ValueIdx

/-- The cost of row r of a block: softplus of the negative score minus the positive score. -/
def rowCost (u p n : FVec Ideal S1024x64 .f32) (r : Fin 1024) : EReal :=
  softplus ((∑ k : Fin 64, u (ix2 r k) * n (ix2 r k)) - (∑ k : Fin 64, u (ix2 r k) * p (ix2 r k)))

/-- A sum along the 64 lanes of a [1024, 64] block, read at row r. -/
theorem lane_sum (src : FVec Ideal S1024x64 .f32) (h : S1024x64.Reduces [1] S1024) (hφ : FKind.Formats .f32)
    (hacc : (0x00000000#32 : BitVec 32) = 0x00000000#32) (r : Fin 1024) :
    multiReduction .add [1] S1024 src 0x00000000#32 h hφ hacc (ix1 r) = ∑ k : Fin 64, src (ix2 r k) := by
  refine (Ideal.multiReduction_add_single src 0x00000000#32 h hφ hacc (ix1 r)).trans ?_
  show (∑ k : Fin 64, src (h.lift (ix1 r) k)) = _
  refine Finset.sum_congr rfl fun k _ => congrArg src ?_
  exact Shape.idx_ext₂ rfl rfl

/-- A sum down the 1024 rows of a [1024, 1] column. -/
theorem col_sum (src : FVec Ideal S1024x1 .f32) (h : S1024x1.Reduces [0] S1) (hφ : FKind.Formats .f32)
    (hacc : (0x00000000#32 : BitVec 32) = 0x00000000#32) (z : Fin 1) :
    multiReduction .add [0] S1 src 0x00000000#32 h hφ hacc (ix1 z) = ∑ r : Fin 1024, src (ix2 r (0 : Fin 1)) := by
  refine (Ideal.multiReduction_add_single src 0x00000000#32 h hφ hacc (ix1 z)).trans ?_
  show (∑ r : Fin 1024, src (h.lift (ix1 z) r)) = _
  refine Finset.sum_congr rfl fun r _ => congrArg src ?_
  exact Shape.idx_ext₂ rfl (by show (z : ℕ) = 0; have := z.isLt; omega)

/-- A vector of 1024 entries viewed as a column: entry (r, 0) is entry r. -/
theorem col_cast (v : FVec Ideal S1024 .f32) (h : S1024.ShapeCasts S1024x1) (r : Fin 1024) (z : Fin 1) :
    shapeCast S1024x1 v h (ix2 r z) = v (ix1 r) := by
  refine shapeCast_apply v h (ix2 r z) (ix1 r) ?_
  rw [Shape.rowMajor_val_one, Shape.rowMajor_val_two]
  show r.val = r.val * 1 + z.val
  have := z.isLt; omega

/-- A one-entry vector viewed as a [1, 1] block. -/
theorem unit_cast (v : FVec Ideal S1 .f32) (h : S1.ShapeCasts S1x1) (a b : Fin 1) :
    shapeCast S1x1 v h (ix2 a b) = v (ix1 (0 : Fin 1)) := by
  refine shapeCast_apply v h (ix2 a b) (ix1 (0 : Fin 1)) ?_
  rw [Shape.rowMajor_val_one, Shape.rowMajor_val_two]
  show (0 : ℕ) = a.val * 1 + b.val
  have := a.isLt; have := b.isLt; omega

/-- The score column of two blocks at row r: the dot product of their rows. -/
theorem dot_block (u w : FVec Ideal S1024x64 .f32) (hc : S1024x64.ShapeCasts S1024x64) (h : S1024x64.Reduces [1] S1024)
    (hφ : FKind.Formats .f32) (hacc : (0x00000000#32 : BitVec 32) = 0x00000000#32) (h' : S1024.ShapeCasts S1024x1)
    (r : Fin 1024) (z : Fin 1) :
    shapeCast S1024x1 (multiReduction .add [1] S1024 (mulf (shapeCast S1024x64 u hc) (shapeCast S1024x64 w hc))
      0x00000000#32 h hφ hacc) h' (ix2 r z) = ∑ k : Fin 64, u (ix2 r k) * w (ix2 r k) := by
  refine (col_cast _ h' r z).trans ?_
  refine (lane_sum _ h hφ hacc r).trans ?_
  rw [shapeCast_self, shapeCast_self]
  rfl

/-- The comparison of a value with itself for "ordered and different" is never taken; what is left of the
    selection is the careful spelling of softplus, the zeros dropping out. -/
theorem softplus_elt (x : EReal) :
    Scalar.select (Ideal.cmp .one (x - 0) (x - 0)) (x + 0)
      (max x 0 + Ideal.log1p (Ideal.exp (0 - max (x - 0) (-(x - 0))))) = softplus x := by
  have hc : Ideal.cmp .one (x - 0) (x - 0) = 0#1 := by simp [Ideal.cmp]
  rw [hc, select_zero, sub_zero, zero_sub]
  rfl

/-- The same over a column of score differences. -/
theorem softplus_col (D : FVec Ideal S1024x1 .f32) (j : S1024x1.Idx) :
    select (cmpf .one (subf D (broadcast S1024x1 (Scalar.ofBits .f32 0x00000000#32)))
        (subf D (broadcast S1024x1 (Scalar.ofBits .f32 0x00000000#32))))
      (addf D (broadcast S1024x1 (Scalar.ofBits .f32 0x00000000#32)))
      (addf (maximumf D (broadcast S1024x1 (Scalar.ofBits .f32 0x00000000#32)))
        (log1p (exp (subf (broadcast S1024x1 (Scalar.ofBits .f32 0x00000000#32))
          (absf (subf D (broadcast S1024x1 (Scalar.ofBits .f32 0x00000000#32)))))))) j = softplus (D j) := by
  refine Eq.trans ?_ (softplus_elt (D j))
  show Scalar.select (Ideal.cmp .one (D j - Ideal.ofBits .f32 0x00000000#32) (D j - Ideal.ofBits .f32 0x00000000#32))
    (D j + Ideal.ofBits .f32 0x00000000#32)
    (max (D j) (Ideal.ofBits .f32 0x00000000#32) + Ideal.log1p (Ideal.exp (Ideal.ofBits .f32 0x00000000#32
      - max (D j - Ideal.ofBits .f32 0x00000000#32) (-(D j - Ideal.ofBits .f32 0x00000000#32))))) = _
  rw [Ideal.ofBits_zero_f32]

/-- What the accumulating store writes: the value read plus the sum of the block's 1024 row costs. -/
theorem pay3_apply (x0 x1 x2 : FVec Ideal S1024x64 .f32) (out : FVec Ideal S1x1 .f32) (a b : Fin 1) :
    k7_pay3 (F := Ideal) x0 x1 x2 out (ix2 a b) = out (ix2 a b) + ∑ r : Fin 1024, rowCost x0 x1 x2 r := by
  unfold k7_pay3
  dsimp only
  refine (addf_apply _ _ _).trans ?_
  refine congrArg₂ (· + ·) (congrFun (shapeCast_self out _) (ix2 a b)) ?_
  refine (unit_cast _ _ a b).trans ?_
  refine (col_sum _ _ _ _ (0 : Fin 1)).trans ?_
  refine Finset.sum_congr rfl fun r _ => ?_
  refine (softplus_col _ (ix2 r (0 : Fin 1))).trans ?_
  unfold rowCost
  refine congrArg softplus ?_
  refine (subf_apply _ _ _).trans ?_
  exact congrArg₂ (· - ·) (dot_block x0 x2 _ _ _ _ _ r 0) (dot_block x0 x1 _ _ _ _ _ r 0)

/-- What the resetting store writes: zero. -/
theorem pay2_apply (j : S1x1.Idx) : k7_pay2 (F := Ideal) j = 0 := by
  show Ideal.ofBits .f32 0x00000000#32 = 0
  exact Ideal.ofBits_zero_f32

/-- The scaling constant is one over the number of triples. -/
theorem scale_eq : Ideal.ofBits .f32 0x39000000#32 = ((1 / 8192 : ℝ) : EReal) := by
  simp [Ideal.ofBits, Ideal.ieee]
  rw [← EReal.coe_mul]
  exact congrArg _ (by norm_num)

/-- What the last store writes: the value read times one over 8192. -/
theorem pay1_apply (v : FVec Ideal S1x1 .f32) (j : S1x1.Idx) :
    k7_pay1 (F := Ideal) v j = v j * ((1 / 8192 : ℝ) : EReal) := by
  unfold k7_pay1
  refine (mulf_apply _ _ _).trans ?_
  refine congrArg₂ (· * ·) (congrFun (shapeCast_self v _) j) ?_
  show Ideal.ofBits .f32 0x39000000#32 = _
  exact scale_eq

end Arith

/-! ## The blocks of the three arrays -/

section Frame
open Cert.Forms Idealize.ShloMosaic.ValueIdx

variable (V : (c : Dev nD) → (b : Ref sig .tc) → Buf (Elt Ideal) ((c : Thread nD τ).loc b))

/-- The three [8192, 64] arrays: the users', the positive items', the negative items' rows. -/
abbrev uarr (c : Dev nD) : FVec Ideal S8192x64 .f32 := V c main_v23
abbrev parr (c : Dev nD) : FVec Ideal S8192x64 .f32 := V c main_v24
abbrev narr (c : Dev nD) : FVec Ideal S8192x64 .f32 := V c main_v25

/-- Their [1024, 64] blocks at point t. -/
abbrev ublk (c : Dev nD) (t : Fin cfg7.N) : FVec Ideal S1024x64 .f32 := iblk7 V c 0 t
abbrev pblk (c : Dev nD) (t : Fin cfg7.N) : FVec Ideal S1024x64 .f32 := iblk7 V c 1 t
abbrev nblk (c : Dev nD) (t : Fin cfg7.N) : FVec Ideal S1024x64 .f32 := iblk7 V c 2 t

/-- Row r of block t is row 1024 t + r of the array. -/
theorem ublk_apply (c : Dev nD) (t : Fin cfg7.N) (r : Fin 1024) (k : Fin 64) (hr : 1024 * t.val + r.val < 8192) :
    ublk V c t (ix2 r k) = uarr V c (ix2 (⟨1024 * t.val + r.val, hr⟩ : Fin 8192) k) := by
  have hi : win7_0.index t 0 = t.val ∧ win7_0.index t 1 = 0 := by
    rcases fin_N7 t with rfl | rfl | rfl | rfl | rfl | rfl | rfl | rfl <;> decide
  show iblk7 V c 0 t (ix2 r k) = V c main_v23 _
  unfold iblk7
  rw [View.read_apply]
  show V c main_v23 _ = V c main_v23 _
  congr 1
  funext a
  apply Fin.ext
  match a with
  | ⟨0, _⟩ => show win7_0.index t 0 * 1024 + 1 * r.val = 1024 * t.val + r.val; rw [hi.1]; omega
  | ⟨1, _⟩ => show win7_0.index t 1 * 64 + 1 * k.val = k.val; rw [hi.2]; omega

theorem pblk_apply (c : Dev nD) (t : Fin cfg7.N) (r : Fin 1024) (k : Fin 64) (hr : 1024 * t.val + r.val < 8192) :
    pblk V c t (ix2 r k) = parr V c (ix2 (⟨1024 * t.val + r.val, hr⟩ : Fin 8192) k) := by
  have hi : win7_1.index t 0 = t.val ∧ win7_1.index t 1 = 0 := by
    rcases fin_N7 t with rfl | rfl | rfl | rfl | rfl | rfl | rfl | rfl <;> decide
  show iblk7 V c 1 t (ix2 r k) = V c main_v24 _
  unfold iblk7
  rw [View.read_apply]
  show V c main_v24 _ = V c main_v24 _
  congr 1
  funext a
  apply Fin.ext
  match a with
  | ⟨0, _⟩ => show win7_1.index t 0 * 1024 + 1 * r.val = 1024 * t.val + r.val; rw [hi.1]; omega
  | ⟨1, _⟩ => show win7_1.index t 1 * 64 + 1 * k.val = k.val; rw [hi.2]; omega

theorem nblk_apply (c : Dev nD) (t : Fin cfg7.N) (r : Fin 1024) (k : Fin 64) (hr : 1024 * t.val + r.val < 8192) :
    nblk V c t (ix2 r k) = narr V c (ix2 (⟨1024 * t.val + r.val, hr⟩ : Fin 8192) k) := by
  have hi : win7_2.index t 0 = t.val ∧ win7_2.index t 1 = 0 := by
    rcases fin_N7 t with rfl | rfl | rfl | rfl | rfl | rfl | rfl | rfl <;> decide
  show iblk7 V c 2 t (ix2 r k) = V c main_v25 _
  unfold iblk7
  rw [View.read_apply]
  show V c main_v25 _ = V c main_v25 _
  congr 1
  funext a
  apply Fin.ext
  match a with
  | ⟨0, _⟩ => show win7_2.index t 0 * 1024 + 1 * r.val = 1024 * t.val + r.val; rw [hi.1]; omega
  | ⟨1, _⟩ => show win7_2.index t 1 * 64 + 1 * k.val = k.val; rw [hi.2]; omega

/-- The cost of the 1024 triples of block s (nothing past the eighth block). -/
def blockLoss (c : Dev nD) (s : ℕ) : EReal :=
  if h : s < 8 then
    ∑ r : Fin 1024, pairLoss (uarr V c) (parr V c) (narr V c) (⟨1024 * s + r.val, by have := r.isLt; omega⟩ : Fin 8192)
  else 0

/-- The row costs of the blocks at point t add up to that block's cost. -/
theorem blockCost_eq (c : Dev nD) (t : Fin cfg7.N) :
    ∑ r : Fin 1024, rowCost (ublk V c t) (pblk V c t) (nblk V c t) r = blockLoss V c t.val := by
  have hN : t.val < 8 := lt_of_lt_of_eq t.isLt (show cfg7.N = 8 from N_7)
  unfold blockLoss
  rw [dif_pos hN]
  refine Finset.sum_congr rfl fun r _ => ?_
  have hr : 1024 * t.val + r.val < 8192 := by have := r.isLt; omega
  unfold rowCost pairLoss rowDot
  refine congrArg softplus (congrArg₂ (· - ·) ?_ ?_)
  · exact Finset.sum_congr rfl fun k _ => congrArg₂ (· * ·) (ublk_apply V c t r k hr) (nblk_apply V c t r k hr)
  · exact Finset.sum_congr rfl fun k _ => congrArg₂ (· * ·) (ublk_apply V c t r k hr) (pblk_apply V c t r k hr)

/-- Eight runs of 1024 consecutive terms are all 8192 terms: (t, r) ↦ 1024 t + r is a bijection, and a sum does not
    care about the order of its terms. -/
theorem regroup (f : Fin 8192 → EReal) :
    ∑ s : Fin 8, ∑ r : Fin 1024, f ⟨1024 * s.val + r.val, by have := s.isLt; have := r.isLt; omega⟩ = ∑ i : Fin 8192, f i := by
  have h : 8 * 1024 = 8192 := by norm_num
  rw [← Equiv.sum_comp (finProdFinEquiv.trans (finCongr h)) f, Fintype.sum_prod_type]
  refine Finset.sum_congr rfl fun s _ => Finset.sum_congr rfl fun r _ => congrArg f (Fin.ext ?_)
  show 1024 * s.val + r.val = r.val + 1024 * s.val
  omega

/-- The eight blocks' costs add up to the cost of all 8192 triples. -/
theorem total_eq (c : Dev nD) :
    ∑ s ∈ Finset.range 8, blockLoss V c s = ∑ i : Fin 8192, pairLoss (uarr V c) (parr V c) (narr V c) i := by
  rw [Finset.sum_range, ← regroup (pairLoss (uarr V c) (parr V c) (narr V c))]
  refine Finset.sum_congr rfl fun s _ => ?_
  unfold blockLoss
  rw [dif_pos s.isLt]

/-! ## What the one-entry buffer holds after each point -/

theorem outs_A (c : Dev nD) (t : Fin cfg7.N) (h0 : t.val % 8 = 0) (h1 : ¬t.val % 8 = 7) :
    outsAt7 V c t.val t.isLt
      = k7_pay3 (F := Ideal) (ublk V c t) (pblk V c t) (nblk V c t) (k7_pay2 (F := Ideal)) :=
  (outsAt7_A V c t h0 h1).trans
    (out_A (F := Ideal) c (grid7.coords t) (ms7_0 t) (hs7_0 t) (ms7_1 t) (hs7_1 t) (ms7_2 t) (hs7_2 t) (ms7_3 t) (hs7_3 t)
      ((hcond7_0 t).mpr h0) (fun h => h1 ((hcond7_1 t).mp h)) (iblk7 V c 0 t) (iblk7 V c 1 t) (iblk7 V c 2 t))

theorem outs_B (c : Dev nD) (t : Fin cfg7.N) (h0 : ¬t.val % 8 = 0) (h1 : ¬t.val % 8 = 7) :
    outsAt7 V c t.val t.isLt
      = k7_pay3 (F := Ideal) (ublk V c t) (pblk V c t) (nblk V c t)
          (outsAt7 V c (t.val - 1) (Nat.lt_of_le_of_lt (Nat.sub_le _ _) t.isLt)) :=
  (outsAt7_B V c t h0 h1).trans
    (out_B (F := Ideal) c (grid7.coords t) (ms7_0 t) (hs7_0 t) (ms7_1 t) (hs7_1 t) (ms7_2 t) (hs7_2 t) (ms7_3 t) (hs7_3 t)
      (fun h => h0 ((hcond7_0 t).mp h)) (fun h => h1 ((hcond7_1 t).mp h)) (iblk7 V c 0 t) (iblk7 V c 1 t) (iblk7 V c 2 t)
      (outsAt7 V c (t.val - 1) (Nat.lt_of_le_of_lt (Nat.sub_le _ _) t.isLt)))

theorem outs_C (c : Dev nD) (t : Fin cfg7.N) (h0 : ¬t.val % 8 = 0) (h1 : t.val % 8 = 7) :
    outsAt7 V c t.val t.isLt
      = k7_pay1 (F := Ideal) (k7_pay3 (F := Ideal) (ublk V c t) (pblk V c t) (nblk V c t)
          (outsAt7 V c (t.val - 1) (Nat.lt_of_le_of_lt (Nat.sub_le _ _) t.isLt))) :=
  (outsAt7_C V c t h0 h1).trans
    (out_C (F := Ideal) c (grid7.coords t) (ms7_0 t) (hs7_0 t) (ms7_1 t) (hs7_1 t) (ms7_2 t) (hs7_2 t) (ms7_3 t) (hs7_3 t)
      (fun h => h0 ((hcond7_0 t).mp h)) ((hcond7_1 t).mpr h1) (iblk7 V c 0 t) (iblk7 V c 1 t) (iblk7 V c 2 t)
      (outsAt7 V c (t.val - 1) (Nat.lt_of_le_of_lt (Nat.sub_le _ _) t.isLt)))

/-- THE INVARIANT: after point n (before the last) the buffer holds the cost of blocks 0 … n. -/
theorem inv (c : Dev nD) : ∀ (n : ℕ) (hn : n < cfg7.N), n ≤ 6 →
    outsAt7 V c n hn = fun _ => ∑ s ∈ Finset.range (n + 1), blockLoss V c s
  | 0, hn, _ => by
    refine (outs_A V c ⟨0, hn⟩ rfl (by intro h; (try dsimp only at h); omega)).trans ?_
    funext j
    obtain ⟨a, b, rfl⟩ : ∃ (a : Fin 1) (b : Fin 1), j = ix2 a b := ⟨j 0, j 1, eq_ix2 j⟩
    refine (pay3_apply (ublk V c ⟨0, hn⟩) (pblk V c ⟨0, hn⟩) (nblk V c ⟨0, hn⟩) (k7_pay2 (F := Ideal)) a b).trans ?_
    rw [blockCost_eq V c ⟨0, hn⟩, pay2_apply, zero_add, Finset.sum_range_one]
  | n + 1, hn, hle => by
    have hN : n + 1 < 8 := lt_of_lt_of_eq hn (show cfg7.N = 8 from N_7)
    refine (outs_B V c ⟨n + 1, hn⟩ (by dsimp only; omega) (by dsimp only; omega)).trans ?_
    funext j
    obtain ⟨a, b, rfl⟩ : ∃ (a : Fin 1) (b : Fin 1), j = ix2 a b := ⟨j 0, j 1, eq_ix2 j⟩
    refine (pay3_apply (ublk V c ⟨n + 1, hn⟩) (pblk V c ⟨n + 1, hn⟩) (nblk V c ⟨n + 1, hn⟩) _ a b).trans ?_
    rw [blockCost_eq V c ⟨n + 1, hn⟩]
    show outsAt7 V c n _ (ix2 a b) + blockLoss V c (n + 1) = _
    rw [inv c n (Nat.lt_of_succ_lt hn) (by omega), Finset.sum_range_succ _ (n + 1)]

/-- After the last point it holds the mean cost: the sum through block 7, scaled. -/
theorem last_eq (c : Dev nD) :
    outsAt7 V c t7_7.val t7_7.isLt = fun _ => meanLoss (uarr V c) (parr V c) (narr V c) := by
  refine (outs_C V c t7_7 (by decide) rfl).trans ?_
  funext j
  obtain ⟨a, b, rfl⟩ : ∃ (a : Fin 1) (b : Fin 1), j = ix2 a b := ⟨j 0, j 1, eq_ix2 j⟩
  refine (pay1_apply _ (ix2 a b)).trans ?_
  unfold meanLoss
  refine congrArg (· * ((1 / 8192 : ℝ) : EReal)) ?_
  refine (pay3_apply (ublk V c t7_7) (pblk V c t7_7) (nblk V c t7_7) _ a b).trans ?_
  rw [blockCost_eq V c t7_7]
  have h6 := inv V c 6 (lt_of_lt_of_eq (by decide : 6 < 8) (show cfg7.N = 8 from N_7).symm) (le_refl 6)
  refine (congrArg₂ (· + ·) (congrFun h6 (ix2 a b)) rfl).trans ?_
  exact (Finset.sum_range_succ (blockLoss V c) 7).symm.trans (total_eq V c)

/-! ## The write-back and the result -/

/-- The one write-back, after the last point, writes that value: the [1, 1] block is the whole array. -/
theorem flushed_eq (c : Dev nD) (t : Fin cfg7.N) (hf : (cfg7.win 3).flush t = true) :
    (dat7 V c).flushed 3 t
      = ((cfg7.win 3).blk t).view.read (Elt Ideal) (fun _ => meanLoss (uarr V c) (parr V c) (narr V c)) := by
  have hN : t.val < 8 := lt_of_lt_of_eq t.isLt (show cfg7.N = 8 from N_7)
  have h7 : t.val = 7 := by have := (flush7_3 t).mp hf; omega
  obtain rfl : t = t7_7 := Fin.ext h7
  show (cfg7.win 3).cut (grid7.coords t7_7) ((dat7 V c).after 3 t7_7) = _
  rw [after7_3, last_eq V c]
  have hz' : (fun a => win7_3.index t7_7 a * main_v26.ty.shape.size a) = fun _ => 0 :=
    funext fun a => by fin_cases a <;> decide
  exact (Memref.read_access_unit_zero (Elt Ideal) main_v26 hz' (fun a => by rw [congrFun hz' a]; simp) _).symm

/-- The last point's block covers the one-entry array: on each axis the block starts at 0 and has one entry. -/
theorem covered (c : Dev nD) (i : ((cfg7.win 3).arr.view.loc (c : Thread nD τ)).2.ty.Idx) :
    ∃ t : Fin cfg7.N, (cfg7.win 3).flush t = true ∧ i ∈ ((cfg7.win 3).blk t).view.set := by
  refine ⟨t7_7, (flush7_3 t7_7).mpr rfl, ?_⟩
  show i ∈ ((View.whole main_v26).slice (win7_3.rect t7_7)).set
  rw [View.set_slice_whole, Rect.mem_set_unit]
  intro a
  have hstart : win7_3.index t7_7 a * win7_3.size a = 0 := by fin_cases a <;> decide +kernel
  have hlen : win7_3.xsize (grid7.coords t7_7) a = 1 := by fin_cases a <;> decide +kernel
  have hi : (i a : ℕ) < 1 := by
    match a with
    | ⟨0, _⟩ => exact (i 0).isLt
    | ⟨1, _⟩ => exact (i 1).isLt
  show win7_3.index t7_7 a * win7_3.size a ≤ (i a : ℕ)
    ∧ (i a : ℕ) < win7_3.index t7_7 a * win7_3.size a + win7_3.xsize (grid7.coords t7_7) a
  rw [hstart, hlen]
  omega

end Frame

/-- After the scoring launch the one-entry result holds the mean cost of the 8192 sampled triples. -/
theorem final (V : (c : Dev nD) → (b : Ref sig .tc) → Buf (Elt Ideal) ((c : Thread nD τ).loc b)) (c : Dev nD) :
    (dat7 (F := Ideal) V c).arrAt 3 cfg7.N = fun _ => Cert.Forms.meanLoss (V c main_v23) (V c main_v24) (V c main_v25) :=
  (dat7 V c).arrAt_eq_of_cover 3 (fun _ => Cert.Forms.meanLoss (V c main_v23) (V c main_v24) (V c main_v25))
    (flushed_eq V c) (covered c)

end Cert.KernelIdeal.Loss7

end
-- ==== Proof.Stages.lean ====
/-
  What each buffer of the propagation holds at the boundary where it is written, as a function of what the boundary
  before holds: a host stretch read back operation by operation (the concatenation, the weights' column, the
  scatter-add, the slices, the final reshape), a gather by its stretch lemma (in range, so nothing is filled in), a
  launch by its closed form at the contents it is entered with.
-/
import proofs.«426244_j67757404061704_2_alg».proof.Proof.Gen.KernelIdeal.Frame
import proofs.«426244_j67757404061704_2_alg».proof.Proof.Chain
import proofs.«426244_j67757404061704_2_alg».proof.Proof.Takes
import proofs.«426244_j67757404061704_2_alg».proof.Proof.Weigh0
import proofs.«426244_j67757404061704_2_alg».proof.Proof.Weigh2
import proofs.«426244_j67757404061704_2_alg».proof.Proof.Weigh4
import proofs.«426244_j67757404061704_2_alg».proof.Proof.Accum1
import proofs.«426244_j67757404061704_2_alg».proof.Proof.Accum3
import proofs.«426244_j67757404061704_2_alg».proof.Proof.Accum5
import proofs.«426244_j67757404061704_2_alg».proof.Proof.Scale6
import proofs.«426244_j67757404061704_2_alg».proof.Proof.Loss7
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Idealize.ShloMosaic Idealize.ShloMosaic.TcCoe Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-- The node table is the users' rows followed by the items' rows. -/
theorem nodes_at1  :
    W1 m ρ c (Proc.devRef .tc main_v0) = Cert.Chain.nodes (W0 m ρ c (Proc.devRef .tc main_arg0)) (W0 m ρ c (Proc.devRef .tc main_arg1)) := by
  show StableHlo.after hostOps0 (W0 m ρ c) (Proc.devRef .tc main_v0) = _
  after_results
  rfl

/-- The weights laid out as a column: row e of the column is weight e. -/
theorem column_at1  :
    ∀ e : Fin 4000000, (W1 m ρ c (Proc.devRef .tc main_v1) : FVec Ideal S4000000x1 .f32) (ValueIdx.ix2 e (0 : Fin 1)) = (W0 m ρ c (Proc.devRef .tc main_arg4) : FVec Ideal S4000000 .f32) (ValueIdx.ix1 e) := by
  intro e
  have hcol : (W1 m ρ c (Proc.devRef .tc main_v1) : FVec Ideal S4000000x1 .f32)
      = shapeCast S4000000x1 (W0 m ρ c (Proc.devRef .tc main_arg4) : FVec Ideal S4000000 .f32) shapeCasts_S4000000_S4000000x1 := by
    show StableHlo.after hostOps0 (W0 m ρ c) (Proc.devRef .tc main_v1) = _
    after_results
    rfl
  rw [hcol]
  refine shapeCast_apply _ _ (ValueIdx.ix2 e (0 : Fin 1)) (ValueIdx.ix1 e) ?_
  rw [Shape.rowMajor_val_one, Shape.rowMajor_val_two]
  show e.val = e.val * 1 + 0
  omega

/-- The first gather. -/
theorem rows_at2 (h : Takes.InRange 300000 (W1 m ρ c (Proc.devRef .tc main_arg2))) :
    W2 m ρ c (Proc.devRef .tc main_v2) = Cert.Chain.rowsE (W1 m ρ c (Proc.devRef .tc main_v0)) (W1 m ρ c (Proc.devRef .tc main_arg2)) :=
  Takes.take_edges0 (W1 m ρ c) h

/-- The first weighting launch. -/
theorem msg_at3  :
    W3 m ρ c (Proc.devRef .tc main_v3) = Cert.Forms.weighted (W2 m ρ c (Proc.devRef .tc main_v2)) (W2 m ρ c (Proc.devRef .tc main_v1)) :=
  (W3_arr m ρ c 2).trans (Weigh0.final (V2 m ρ) c)

/-- The first scatter-add. -/
theorem cur_at4  :
    W4 m ρ c (Proc.devRef .tc main_v6) = Cert.Chain.spread (W3 m ρ c (Proc.devRef .tc main_v3)) (W3 m ρ c (Proc.devRef .tc main_arg3)) := by
  show StableHlo.after hostOps1 (W3 m ρ c) (Proc.devRef .tc main_v6) = _
  after_results
  rfl

/-- The first accumulation launch. -/
theorem acc_at5  :
    W5 m ρ c (Proc.devRef .tc main_v7) = Cert.Forms.summed (W4 m ρ c (Proc.devRef .tc main_v0)) (W4 m ρ c (Proc.devRef .tc main_v6)) :=
  (W5_arr m ρ c 2).trans (Accum1.final (V4 m ρ) c)

/-- The second gather. -/
theorem rows_at6 (h : Takes.InRange 300000 (W5 m ρ c (Proc.devRef .tc main_arg2))) :
    W6 m ρ c (Proc.devRef .tc main_v8) = Cert.Chain.rowsE (W5 m ρ c (Proc.devRef .tc main_v6)) (W5 m ρ c (Proc.devRef .tc main_arg2)) :=
  Takes.take_edges1 (W5 m ρ c) h

/-- The second weighting launch. -/
theorem msg_at7  :
    W7 m ρ c (Proc.devRef .tc main_v9) = Cert.Forms.weighted (W6 m ρ c (Proc.devRef .tc main_v8)) (W6 m ρ c (Proc.devRef .tc main_v1)) :=
  (W7_arr m ρ c 2).trans (Weigh2.final (V6 m ρ) c)

/-- The second scatter-add. -/
theorem cur_at8  :
    W8 m ρ c (Proc.devRef .tc main_v12) = Cert.Chain.spread (W7 m ρ c (Proc.devRef .tc main_v9)) (W7 m ρ c (Proc.devRef .tc main_arg3)) := by
  show StableHlo.after hostOps3 (W7 m ρ c) (Proc.devRef .tc main_v12) = _
  after_results
  rfl

/-- The second accumulation launch. -/
theorem acc_at9  :
    W9 m ρ c (Proc.devRef .tc main_v13) = Cert.Forms.summed (W8 m ρ c (Proc.devRef .tc main_v7)) (W8 m ρ c (Proc.devRef .tc main_v12)) :=
  (W9_arr m ρ c 2).trans (Accum3.final (V8 m ρ) c)

/-- The third gather. -/
theorem rows_at10 (h : Takes.InRange 300000 (W9 m ρ c (Proc.devRef .tc main_arg2))) :
    W10 m ρ c (Proc.devRef .tc main_v14) = Cert.Chain.rowsE (W9 m ρ c (Proc.devRef .tc main_v12)) (W9 m ρ c (Proc.devRef .tc main_arg2)) :=
  Takes.take_edges2 (W9 m ρ c) h

/-- The third weighting launch. -/
theorem msg_at11  :
    W11 m ρ c (Proc.devRef .tc main_v15) = Cert.Forms.weighted (W10 m ρ c (Proc.devRef .tc main_v14)) (W10 m ρ c (Proc.devRef .tc main_v1)) :=
  (W11_arr m ρ c 2).trans (Weigh4.final (V10 m ρ) c)

/-- The third scatter-add. -/
theorem cur_at12  :
    W12 m ρ c (Proc.devRef .tc main_v18) = Cert.Chain.spread (W11 m ρ c (Proc.devRef .tc main_v15)) (W11 m ρ c (Proc.devRef .tc main_arg3)) := by
  show StableHlo.after hostOps5 (W11 m ρ c) (Proc.devRef .tc main_v18) = _
  after_results
  rfl

/-- The third accumulation launch. -/
theorem acc_at13  :
    W13 m ρ c (Proc.devRef .tc main_v19) = Cert.Forms.summed (W12 m ρ c (Proc.devRef .tc main_v13)) (W12 m ρ c (Proc.devRef .tc main_v18)) :=
  (W13_arr m ρ c 2).trans (Accum5.final (V12 m ρ) c)

/-- The scaling launch. -/
theorem mean_at14  :
    W14 m ρ c (Proc.devRef .tc main_v20) = Cert.Forms.quartered (W13 m ρ c (Proc.devRef .tc main_v19)) :=
  (W14_arr m ρ c 1).trans (Scale6.final (V13 m ρ) c)

/-- The users' half of the layer mean. -/
theorem users_at15  :
    W15 m ρ c (Proc.devRef .tc main_v21) = Cert.Chain.usersOf (W14 m ρ c (Proc.devRef .tc main_v20)) := by
  show StableHlo.after hostOps7 (W14 m ρ c) (Proc.devRef .tc main_v21) = _
  after_results
  rfl

/-- The items' half. -/
theorem items_at15  :
    W15 m ρ c (Proc.devRef .tc main_v22) = Cert.Chain.itemsOf (W14 m ρ c (Proc.devRef .tc main_v20)) := by
  show StableHlo.after hostOps7 (W14 m ρ c) (Proc.devRef .tc main_v22) = _
  after_results
  rfl

/-- The sampled users' rows. -/
theorem u_at16 (h : Takes.InRange 100000 (W15 m ρ c (Proc.devRef .tc main_arg5))) :
    W16 m ρ c (Proc.devRef .tc main_v23) = Cert.Chain.rowsU (W15 m ρ c (Proc.devRef .tc main_v21)) (W15 m ρ c (Proc.devRef .tc main_arg5)) :=
  Takes.take_users (W15 m ρ c) h

/-- The sampled positive items' rows. -/
theorem p_at17 (h : Takes.InRange 200000 (W16 m ρ c (Proc.devRef .tc main_arg6))) :
    W17 m ρ c (Proc.devRef .tc main_v24) = Cert.Chain.rowsI (W16 m ρ c (Proc.devRef .tc main_v22)) (W16 m ρ c (Proc.devRef .tc main_arg6)) :=
  Takes.take_pos (W16 m ρ c) h

/-- The sampled negative items' rows. -/
theorem n_at18 (h : Takes.InRange 200000 (W17 m ρ c (Proc.devRef .tc main_arg7))) :
    W18 m ρ c (Proc.devRef .tc main_v25) = Cert.Chain.rowsI (W17 m ρ c (Proc.devRef .tc main_v22)) (W17 m ρ c (Proc.devRef .tc main_arg7)) :=
  Takes.take_neg (W17 m ρ c) h

/-- The scoring launch. -/
theorem loss_at19  :
    W19 m ρ c (Proc.devRef .tc main_v26) = fun _ => Cert.Forms.meanLoss (W18 m ρ c (Proc.devRef .tc main_v23)) (W18 m ρ c (Proc.devRef .tc main_v24)) (W18 m ρ c (Proc.devRef .tc main_v25)) :=
  (W19_arr m ρ c 3).trans (Loss7.final (V18 m ρ) c)

/-- The scalar result is the one entry of the [1, 1] array. -/
theorem result_at20  :
    ∀ i, (W20 m ρ c (Proc.devRef .tc main_v27) : FVec Ideal S_ .f32) i = (W19 m ρ c (Proc.devRef .tc main_v26) : FVec Ideal S1x1 .f32) (ValueIdx.ix2 (0 : Fin 1) (0 : Fin 1)) := by
  intro i
  have hres : (W20 m ρ c (Proc.devRef .tc main_v27) : FVec Ideal S_ .f32)
      = shapeCast S_ (W19 m ρ c (Proc.devRef .tc main_v26) : FVec Ideal S1x1 .f32) shapeCasts_S1x1_S_ := by
    show StableHlo.after hostOps8 (W19 m ρ c) (Proc.devRef .tc main_v27) = _
    after_results
    rfl
  rw [hres]
  refine shapeCast_apply _ _ i (ValueIdx.ix2 (0 : Fin 1) (0 : Fin 1)) ?_
  rw [Shape.rowMajor_val_two]
  have hone : S_.numel = 1 := rfl
  have hlt := (S_.rowMajor i).isLt
  show 0 * 1 + 0 = (S_.rowMajor i).val
  omega

end Cert.KernelIdeal.Stages

end
-- ==== Proof.KernelLoss.lean ====
/-
  The idealized kernel program's result, as the common loss term of the launch arrays. The value walks back from the
  scalar result through the scoring launch, the three sampled gathers, the two halves of the layer mean, the scaling
  launch and the three propagation steps (gather, weighting launch, scatter-add, accumulation launch) to the node
  table and the launch arrays: each buffer's contents at the boundary where it is written (Stages), carried unchanged
  to the boundary where it is read (Keep). The index ranges are needed exactly where a gather would otherwise fill in
  rows for out-of-range indices.
-/
import proofs.«426244_j67757404061704_2_alg».proof.Proof.Stages
import proofs.«426244_j67757404061704_2_alg».proof.Proof.Keep

set_option maxRecDepth 16384

noncomputable section

namespace Cert.KernelIdeal.KernelLoss

open Idealize.ShloMosaic Idealize.ShloMosaic.TcCoe Idealize.SL.Sem
open Cert.KernelIdeal Cert.KernelIdeal.Gen Cert.Chain Cert.Forms

/-- Two tables added entry by entry, in the library's spelling. -/
theorem summed_eq_addf (a b : FVec Ideal S300000x64 .f32) : Cert.Forms.summed a b = addf a b := by
  funext i; rfl

variable (m : (ℓ : Loc nD τ sig) → Buf (Elt Ideal) ℓ) (ρ : Dev nD → PrngReg) (c : Dev nD)

/-- The last boundary's contents at the result buffer: the loss of the launch arrays. -/
theorem value (h2 : Takes.InRange 300000 (m ((c : Thread nD τ).loc main_arg2))) (h5 : Takes.InRange 100000 (m ((c : Thread nD τ).loc main_arg5)))
    (h6 : Takes.InRange 200000 (m ((c : Thread nD τ).loc main_arg6))) (h7 : Takes.InRange 200000 (m ((c : Thread nD τ).loc main_arg7))) :
    W20 m ρ c (Proc.devRef .tc main_v27)
      = fun _ => Cert.Chain.loss (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  -- the index ranges, at the boundaries where the gathers read the index inputs
  have r1 : Takes.InRange 300000 (W1 m ρ c (Proc.devRef .tc main_arg2)) := by rw [Keep.arg2_at1 m ρ c]; exact h2
  have r5 : Takes.InRange 300000 (W5 m ρ c (Proc.devRef .tc main_arg2)) := by rw [Keep.arg2_at5 m ρ c]; exact h2
  have r9 : Takes.InRange 300000 (W9 m ρ c (Proc.devRef .tc main_arg2)) := by rw [Keep.arg2_at9 m ρ c]; exact h2
  have r15 : Takes.InRange 100000 (W15 m ρ c (Proc.devRef .tc main_arg5)) := by rw [Keep.arg5_at15 m ρ c]; exact h5
  have r16 : Takes.InRange 200000 (W16 m ρ c (Proc.devRef .tc main_arg6)) := by rw [Keep.arg6_at16 m ρ c]; exact h6
  have r17 : Takes.InRange 200000 (W17 m ρ c (Proc.devRef .tc main_arg7)) := by rw [Keep.arg7_at17 m ρ c]; exact h7
  -- the node table and the weights' column
  have e0 : W1 m ρ c (Proc.devRef .tc main_v0) = nodes (m ((c : Thread nD τ).loc main_arg0)) (m ((c : Thread nD τ).loc main_arg1)) := by
    rw [Stages.nodes_at1 m ρ c, Keep.arg0_at0 m ρ c, Keep.arg1_at0 m ρ c]
  have col : ∀ e : Fin 4000000, (W1 m ρ c (Proc.devRef .tc main_v1) : FVec Ideal S4000000x1 .f32) (ValueIdx.ix2 e (0 : Fin 1))
      = ((m ((c : Thread nD τ).loc main_arg4)) : FVec Ideal S4000000 .f32) (ValueIdx.ix1 e) := fun e => by
    rw [Stages.column_at1 m ρ c e, Keep.arg4_at0 m ρ c]
  -- the first propagation step
  have g1 : W2 m ρ c (Proc.devRef .tc main_v2) = rowsE (nodes (m ((c : Thread nD τ).loc main_arg0)) (m ((c : Thread nD τ).loc main_arg1))) (m ((c : Thread nD τ).loc main_arg2)) := by
    rw [Stages.rows_at2 m ρ c r1, e0, Keep.arg2_at1 m ρ c]
  have m1 : W3 m ρ c (Proc.devRef .tc main_v3) = weightedBy (rowsE (nodes (m ((c : Thread nD τ).loc main_arg0)) (m ((c : Thread nD τ).loc main_arg1))) (m ((c : Thread nD τ).loc main_arg2))) (m ((c : Thread nD τ).loc main_arg4)) := by
    rw [Stages.msg_at3 m ρ c, g1]
    exact weighted_eq_weightedBy _ _ _ (fun e => by rw [Keep.v1_at2 m ρ c]; exact col e)
  have c1 : W4 m ρ c (Proc.devRef .tc main_v6) = hop (nodes (m ((c : Thread nD τ).loc main_arg0)) (m ((c : Thread nD τ).loc main_arg1))) (m ((c : Thread nD τ).loc main_arg2)) (m ((c : Thread nD τ).loc main_arg3)) (m ((c : Thread nD τ).loc main_arg4)) := by
    rw [Stages.cur_at4 m ρ c, m1, Keep.arg3_at3 m ρ c]; unfold hop; rfl
  have s1 : W5 m ρ c (Proc.devRef .tc main_v7)
      = addf (nodes (m ((c : Thread nD τ).loc main_arg0)) (m ((c : Thread nD τ).loc main_arg1))) (hop (nodes (m ((c : Thread nD τ).loc main_arg0)) (m ((c : Thread nD τ).loc main_arg1))) (m ((c : Thread nD τ).loc main_arg2)) (m ((c : Thread nD τ).loc main_arg3)) (m ((c : Thread nD τ).loc main_arg4))) := by
    rw [Stages.acc_at5 m ρ c, Keep.v0_at4 m ρ c, e0, c1, summed_eq_addf]
  -- the second
  have g2 : W6 m ρ c (Proc.devRef .tc main_v8) = rowsE (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) := by
    rw [Stages.rows_at6 m ρ c r5, Keep.v6_at5 m ρ c, c1, Keep.arg2_at5 m ρ c]
  have m2 : W7 m ρ c (Proc.devRef .tc main_v9)
      = weightedBy (rowsE (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2))) (m ((c : Thread nD τ).loc main_arg4)) := by
    rw [Stages.msg_at7 m ρ c, g2]
    exact weighted_eq_weightedBy _ _ _ (fun e => by rw [Keep.v1_at6 m ρ c]; exact col e)
  have c2 : W8 m ρ c (Proc.devRef .tc main_v12)
      = hop (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4)) := by
    rw [Stages.cur_at8 m ρ c, m2, Keep.arg3_at7 m ρ c]; conv_rhs => unfold hop
    rfl
  have s2 : W9 m ρ c (Proc.devRef .tc main_v13)
      = addf (addf (nodes (m ((c : Thread nD τ).loc main_arg0)) (m ((c : Thread nD τ).loc main_arg1))) (hop (nodes (m ((c : Thread nD τ).loc main_arg0)) (m ((c : Thread nD τ).loc main_arg1))) (m ((c : Thread nD τ).loc main_arg2)) (m ((c : Thread nD τ).loc main_arg3)) (m ((c : Thread nD τ).loc main_arg4))))
          (hop (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4))) := by
    rw [Stages.acc_at9 m ρ c, Keep.v7_at8 m ρ c, s1, c2, summed_eq_addf]
  -- the third
  have g3 : W10 m ρ c (Proc.devRef .tc main_v14)
      = rowsE (hop (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4))) (m ((c : Thread nD τ).loc main_arg2)) := by
    rw [Stages.rows_at10 m ρ c r9, Keep.v12_at9 m ρ c, c2, Keep.arg2_at9 m ρ c]
  have m3 : W11 m ρ c (Proc.devRef .tc main_v15)
      = weightedBy (rowsE (hop (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4))) (m ((c : Thread nD τ).loc main_arg2))) (m ((c : Thread nD τ).loc main_arg4)) := by
    rw [Stages.msg_at11 m ρ c, g3]
    exact weighted_eq_weightedBy _ _ _ (fun e => by rw [Keep.v1_at10 m ρ c]; exact col e)
  have c3 : W12 m ρ c (Proc.devRef .tc main_v18)
      = hop (hop (hop (nodes (m ((c : Thread nD τ).loc main_arg0)) (m ((c : Thread nD τ).loc main_arg1))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4))) (m ((c : Thread nD τ).loc main_arg2)) (m ((c : Thread nD τ).loc main_arg3)) (m ((c : Thread nD τ).loc main_arg4)) := by
    rw [Stages.cur_at12 m ρ c, m3, Keep.arg3_at11 m ρ c]; conv_rhs => unfold hop
    rfl
  -- the layer mean and its halves
  have lm : W14 m ρ c (Proc.devRef .tc main_v20) = layerMean (m ((c : Thread nD τ).loc main_arg0)) (m ((c : Thread nD τ).loc main_arg1)) (m ((c : Thread nD τ).loc main_arg2)) (m ((c : Thread nD τ).loc main_arg3)) (m ((c : Thread nD τ).loc main_arg4)) := by
    rw [Stages.mean_at14 m ρ c, Stages.acc_at13 m ρ c, Keep.v13_at12 m ρ c, s2, c3, summed_eq_addf]
    rfl
  have us : W15 m ρ c (Proc.devRef .tc main_v21) = usersOf (layerMean (m ((c : Thread nD τ).loc main_arg0)) (m ((c : Thread nD τ).loc main_arg1)) (m ((c : Thread nD τ).loc main_arg2)) (m ((c : Thread nD τ).loc main_arg3)) (m ((c : Thread nD τ).loc main_arg4))) := by
    rw [Stages.users_at15 m ρ c, lm]
  have it : W15 m ρ c (Proc.devRef .tc main_v22) = itemsOf (layerMean (m ((c : Thread nD τ).loc main_arg0)) (m ((c : Thread nD τ).loc main_arg1)) (m ((c : Thread nD τ).loc main_arg2)) (m ((c : Thread nD τ).loc main_arg3)) (m ((c : Thread nD τ).loc main_arg4))) := by
    rw [Stages.items_at15 m ρ c, lm]
  -- the sampled rows
  have u : W16 m ρ c (Proc.devRef .tc main_v23) = rowsU (usersOf (layerMean (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg5)) := by
    rw [Stages.u_at16 m ρ c r15, us, Keep.arg5_at15 m ρ c]
  have p : W17 m ρ c (Proc.devRef .tc main_v24) = rowsI (itemsOf (layerMean (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg6)) := by
    rw [Stages.p_at17 m ρ c r16, Keep.v22_at16 m ρ c, it, Keep.arg6_at16 m ρ c]
  have n : W18 m ρ c (Proc.devRef .tc main_v25) = rowsI (itemsOf (layerMean (m ((c : Thread nD τ).loc main_arg0)) (m ((c : Thread nD τ).loc main_arg1)) (m ((c : Thread nD τ).loc main_arg2)) (m ((c : Thread nD τ).loc main_arg3)) (m ((c : Thread nD τ).loc main_arg4)))) (m ((c : Thread nD τ).loc main_arg7)) := by
    rw [Stages.n_at18 m ρ c r17, Keep.v22_at17 m ρ c, it, Keep.arg7_at17 m ρ c]
  -- the loss
  funext i
  rw [Stages.result_at20 m ρ c i, Stages.loss_at19 m ρ c, Keep.v23_at18 m ρ c, Keep.v24_at18 m ρ c, u, p, n]
  rfl

end Cert.KernelIdeal.KernelLoss

end
-- ==== Proof.RefLoss.lean ====
/-
  The reference program's result is the common loss term.
  The reference computes, stage by stage: the node table (users' rows, then items' rows); three propagation steps, each
  gathering every edge's source row, scaling it by the edge's weight and adding it into the destination's row from
  zeros; the sum of the node table and the three propagated tables divided by 4; the users' and items' halves of that
  mean read at the sampled row numbers; the two scores of every sampled triple as 0 plus a sum of 64 products; softplus
  of their difference; and the sum of the 8192 costs from 0, divided by 8192.
  The gathers, the scatter-adds, the slices and the concatenation are the very operations the common term carries, so
  they are matched whole and never read at an index. What is bridged, each at one symbolic index:
  (1) weight times row is row times weight (the weight reaches every column of its edge's row through two broadcasts);
  (2) dividing by the real 4 is multiplying by a quarter, at the infinities too;
  (3) 0 plus the sum of 64 products is the dot product of the two rows;
  (4) the inlined softplus takes its ordinary branch, because an extended real is never unequal to itself, and x - 0 = x;
  (5) 0 plus the sum of the costs, divided by the real 8192, is the sum times 1/8192.
-/
import proofs.«426244_j67757404061704_2_alg».proof.Proof.RefRun
import proofs.«426244_j67757404061704_2_alg».proof.Proof.RefRead
import proofs.«426244_j67757404061704_2_alg».proof.Proof.Chain
import Idealize.ShloMosaic.Lib.ValueIdxRank1

noncomputable section

namespace Cert.ReferenceIdeal.RefLoss

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ## The three float constants the program spells, as the reals they denote -/

/-- The pattern of +0.0 denotes 0. -/
theorem ofBits_zero : Ideal.ofBits .f32 0x00000000#32 = 0 := by
  simp [Ideal.ofBits, Ideal.ieee]

/-- The pattern of 4.0 denotes the real 4. -/
theorem ofBits_four : Ideal.ofBits .f32 0x40800000#32 = ((4 : ℝ) : EReal) := by
  simp [Ideal.ofBits, Ideal.ieee, -EReal.coe_mul]; norm_num

/-- The pattern of 8192.0 denotes the real 8192. -/
theorem ofBits_8192 : Ideal.ofBits .f32 0x46000000#32 = ((8192 : ℝ) : EReal) := by
  simp [Ideal.ofBits, Ideal.ieee, -EReal.coe_mul]; norm_num

/-! ## Index equations -/

/-- Through the two broadcasts, entry (e, d) of the widened weights reads the weight of edge e. -/
theorem idx_weight (i : S4000000x64.Idx) : idx_main_v1 (idx_main_v9 i) = ix1 (n := 4000000) (i 0) :=
  funext fun a => Fin.ext (by match a with | ⟨0, _⟩ => rfl)

/-- Term k of the positive score of triple i sits at entry (i, k). -/
theorem idx_pos (i : Fin 8192) (k : Fin 64) : idx_main_v69 (ix1 i) k = ix2 i k :=
  funext fun a => Fin.ext (by match a with | ⟨0, _⟩ => rfl | ⟨1, _⟩ => rfl)

/-- Term k of the negative score of triple i sits at entry (i, k). -/
theorem idx_neg (i : Fin 8192) (k : Fin 64) : idx_main_v71 (ix1 i) k = ix2 i k :=
  funext fun a => Fin.ext (by match a with | ⟨0, _⟩ => rfl | ⟨1, _⟩ => rfl)

/-- A sum over the 8192 one-coordinate indices is the sum over the coordinate. -/
theorem sum_idx1 (f : S8192.Idx → EReal) : ∑ t : S8192.Idx, f t = ∑ i : Fin 8192, f (ix1 i) :=
  (Equiv.sum_comp (idxEquiv1 (n := 8192)).symm f).symm

variable (x0 : FVec Ideal S100000x64 .f32) (x1 : FVec Ideal S200000x64 .f32) (x2 x3 : IVec S4000000 32)
  (x4 : FVec Ideal S4000000 .f32) (x5 x6 x7 : IVec S8192 32)

/-! ## (1) The message and one propagation step -/

/-- The widened weights times the gathered rows is every gathered row times its edge's weight. -/
theorem message (w : FVec Ideal S4000000 .f32) (g : FVec Ideal S4000000x64 .f32) :
    mulf (val_main_v9 (F := Ideal) w) g = Cert.Forms.weightedBy g w := by
  funext i
  show val_main_v9 (F := Ideal) w i * g i = g i * w (ix1 (n := 4000000) (i 0))
  rw [val_main_v9_apply, val_main_v1_apply, idx_weight, mul_comm]

/-- One propagation step of the reference, from any current table, is the common term's step. -/
theorem hop_gen (cur : FVec Ideal S300000x64 .f32) :
    Host.scatterAdd scatter_S300000x64_S4000000x1_S4000000x64_1_0_0_1 (val_main_v11 (F := Ideal))
      (val_main_v12 (F := Ideal) x3)
      (mulf (val_main_v9 (F := Ideal) x4)
        (Host.gather gather_S300000x64_S4000000x1_S4000000x64_1_0_n_n_0_1_164 cur (val_main_v7 (F := Ideal) x2)))
    = Cert.Chain.hop cur x2 x3 x4 := by
  rw [message]
  rfl

/-- The first propagated table. -/
theorem v13_eq : val_main_v13 (F := Ideal) x0 x1 x2 x3 x4 = Cert.Chain.hop (Cert.Chain.nodes x0 x1) x2 x3 x4 :=
  hop_gen x2 x3 x4 (val_main_v0 (F := Ideal) x0 x1)

/-- The second, from the first. -/
theorem v27_eq : val_main_v27 (F := Ideal) x0 x1 x2 x3 x4
    = Cert.Chain.hop (val_main_v13 (F := Ideal) x0 x1 x2 x3 x4) x2 x3 x4 :=
  hop_gen x2 x3 x4 (val_main_v13 (F := Ideal) x0 x1 x2 x3 x4)

/-- The third, from the second. -/
theorem v41_eq : val_main_v41 (F := Ideal) x0 x1 x2 x3 x4
    = Cert.Chain.hop (val_main_v27 (F := Ideal) x0 x1 x2 x3 x4) x2 x3 x4 :=
  hop_gen x2 x3 x4 (val_main_v27 (F := Ideal) x0 x1 x2 x3 x4)

/-! ## (2) The layer mean -/

/-- Dividing every entry by the real 4 is multiplying it by a quarter. -/
theorem quarter (a : FVec Ideal S300000x64 .f32) :
    Host.divf a (val_main_v43 (F := Ideal)) = Cert.Forms.quartered a := by
  funext i
  show Ideal.div (a i) (val_main_v43 (F := Ideal) i) = a i * ((1 / 4 : ℝ) : EReal)
  rw [val_main_v43_apply]
  show Ideal.div (a i) (Ideal.ofBits .f32 0x40800000#32) = a i * ((1 / 4 : ℝ) : EReal)
  rw [ofBits_four, Ideal.div_coe (by norm_num : (4 : ℝ) ≠ 0)]

/-- The reference's layer mean is the common term's. -/
theorem v44_eq : val_main_v44 (F := Ideal) x0 x1 x2 x3 x4 = Cert.Chain.layerMean x0 x1 x2 x3 x4 := by
  unfold val_main_v44
  rw [quarter]
  unfold val_main_v42 val_main_v28 val_main_v14
  rw [v41_eq, v27_eq, v13_eq]
  rfl

/-! ## The sampled rows -/

/-- The users' half of the mean at the sampled users. -/
theorem v53_eq : val_main_v53 (F := Ideal) x0 x1 x2 x3 x4 x5
    = Cert.Chain.rowsU (Cert.Chain.usersOf (Cert.Chain.layerMean x0 x1 x2 x3 x4)) x5 := by
  unfold val_main_v53 val_main_v45
  rw [v44_eq]
  rfl

/-- The items' half at the sampled positive items. -/
theorem v60_eq : val_main_v60 (F := Ideal) x0 x1 x2 x3 x4 x6
    = Cert.Chain.rowsI (Cert.Chain.itemsOf (Cert.Chain.layerMean x0 x1 x2 x3 x4)) x6 := by
  unfold val_main_v60 val_main_v46
  rw [v44_eq]
  rfl

/-- The items' half at the sampled negative items. -/
theorem v67_eq : val_main_v67 (F := Ideal) x0 x1 x2 x3 x4 x7
    = Cert.Chain.rowsI (Cert.Chain.itemsOf (Cert.Chain.layerMean x0 x1 x2 x3 x4)) x7 := by
  unfold val_main_v67 val_main_v46
  rw [v44_eq]
  rfl

/-! ## (3) The scores -/

/-- Triple i's negative score minus its positive score. -/
theorem v72_at (i : Fin 8192) :
    val_main_v72 (F := Ideal) x0 x1 x2 x3 x4 x5 x6 x7 (ix1 i)
      = Cert.Forms.rowDot (Cert.Chain.rowsU (Cert.Chain.usersOf (Cert.Chain.layerMean x0 x1 x2 x3 x4)) x5)
          (Cert.Chain.rowsI (Cert.Chain.itemsOf (Cert.Chain.layerMean x0 x1 x2 x3 x4)) x7) i
        - Cert.Forms.rowDot (Cert.Chain.rowsU (Cert.Chain.usersOf (Cert.Chain.layerMean x0 x1 x2 x3 x4)) x5)
          (Cert.Chain.rowsI (Cert.Chain.itemsOf (Cert.Chain.layerMean x0 x1 x2 x3 x4)) x6) i := by
  rw [val_main_v72_apply, val_main_v71_apply, val_main_v69_apply]
  unfold val_main_v70 val_main_v68
  rw [v53_eq, v60_eq, v67_eq]
  simp only [idx_pos, idx_neg]
  show (Ideal.ofBits .f32 0x00000000#32 + _) - (Ideal.ofBits .f32 0x00000000#32 + _) = _
  rw [ofBits_zero, zero_add, zero_add]
  rfl

/-! ## (4) Softplus -/

/-- The inlined softplus on one extended real: the comparison of x - 0 with itself for inequality is false, so the
    select takes the branch max x 0 + log1p (exp (-|x - 0|)), and x - 0 is x. -/
theorem softplus_scalar (x : EReal) :
    Scalar.select (Ideal.cmp .une (x - Ideal.ofBits .f32 0x00000000#32) (x - Ideal.ofBits .f32 0x00000000#32))
      (x + Ideal.ofBits .f32 0x00000000#32)
      (max x (Ideal.ofBits .f32 0x00000000#32)
        + Ideal.log1p (Ideal.exp (-(max (x - Ideal.ofBits .f32 0x00000000#32) (-(x - Ideal.ofBits .f32 0x00000000#32))))))
    = Cert.Forms.softplus x := by
  rw [ofBits_zero, sub_zero]
  have h : Ideal.cmp .une x x = 0#1 := by simp [Ideal.cmp]
  rw [h, select_zero]
  rfl

/-- Triple i's cost. -/
theorem v73_at (i : Fin 8192) :
    val_main_v73 (F := Ideal) x0 x1 x2 x3 x4 x5 x6 x7 (ix1 i)
      = Cert.Forms.pairLoss (Cert.Chain.rowsU (Cert.Chain.usersOf (Cert.Chain.layerMean x0 x1 x2 x3 x4)) x5)
          (Cert.Chain.rowsI (Cert.Chain.itemsOf (Cert.Chain.layerMean x0 x1 x2 x3 x4)) x6)
          (Cert.Chain.rowsI (Cert.Chain.itemsOf (Cert.Chain.layerMean x0 x1 x2 x3 x4)) x7) i := by
  unfold Cert.Forms.pairLoss
  rw [← v72_at x0 x1 x2 x3 x4 x5 x6 x7 i]
  simp only [val_main_v73_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply]
  generalize val_main_v72 (F := Ideal) x0 x1 x2 x3 x4 x5 x6 x7 (ix1 i) = x
  exact softplus_scalar x

/-! ## (5) The mean, and the result -/

/-- The reference's last stage is the loss, at its one index. -/
theorem value' : val_main_v75 (F := Ideal) x0 x1 x2 x3 x4 x5 x6 x7
    = fun _ => Cert.Chain.loss x0 x1 x2 x3 x4 x5 x6 x7 := by
  funext j
  rw [val_main_v75_apply, val_main_v74_apply, sum_idx1]
  simp only [v73_at]
  show Ideal.div (Ideal.ofBits .f32 0x00000000#32 + _) (Ideal.ofBits .f32 0x46000000#32) = _
  rw [ofBits_zero, zero_add, ofBits_8192, Ideal.div_coe (by norm_num : (8192 : ℝ) ≠ 0)]
  rfl

/-- THE RESULT: on every device the reference's run ends with the loss of the eight argument arrays. -/
theorem value (m : (ℓ : Loc nD τ sig) → Buf (Elt Ideal) ℓ) (c : Dev nD) :
    Cert.ReferenceIdeal.ValueP.res_out0 (F := Ideal) m c
      = fun _ => Cert.Chain.loss (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  (val_main_v75_eq (F := Ideal) m c).trans (value' _ _ _ _ _ _ _ _)

end Cert.ReferenceIdeal.RefLoss

end
-- ==== Proof.Claims.lean ====
/-
  The five claims. The two kernel programs' frames are the generated ones. The reference's frame is its run with the
  result dropped. Nothing was rewritten when the kernel was idealized, so that claim is trivial. The value claim: under
  the precondition every gather index is a row number of its table, so the kernel program, which would replace rows at
  out-of-range indices, gathers exactly what the reference gathers; launch by launch and operation by operation both
  programs then compute one function of the eight argument arrays (Chain.loss): three propagation steps over the edge
  list, the layer mean, and the mean softplus cost of the sampled triples. The two programs differ only in the order of
  a product, in multiplying by 1/4 and 1/8192 where the reference divides by 4 and 8192, and in the grouping of the sum
  over the triples — none of which changes an extended real.
-/
import proofs.«426244_j67757404061704_2_alg».proof.Defs
import proofs.«426244_j67757404061704_2_alg».proof.Proof.Gen.Kernel
import proofs.«426244_j67757404061704_2_alg».proof.Proof.Gen.Kernel.Frame
import proofs.«426244_j67757404061704_2_alg».proof.Proof.Gen.KernelIdeal
import proofs.«426244_j67757404061704_2_alg».proof.Proof.Gen.KernelIdeal.Frame
import proofs.«426244_j67757404061704_2_alg».proof.Proof.Gen.ReferenceIdeal
import proofs.«426244_j67757404061704_2_alg».proof.Proof.Gen.Pre_finite_inputs
import proofs.«426244_j67757404061704_2_alg».proof.Proof.RunNamed
import proofs.«426244_j67757404061704_2_alg».proof.Proof.KernelLoss
import proofs.«426244_j67757404061704_2_alg».proof.Proof.RefRun
import proofs.«426244_j67757404061704_2_alg».proof.Proof.RefLoss

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Under the precondition the idealized kernel program ends with its result at the loss of its argument arrays, the
    arguments unchanged: the run with the result named, and the result's value walked back to the launch arrays. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v27)
          = (fun _ => Cert.Chain.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) := by
  refine (θ_run Cert.KernelIdeal.defs _ _).mono (fun r h c => ⟨(h c).1.trans ?_, (h c).2⟩)
    (Cert.KernelIdeal.Gen.run_named (F := Ideal) m ρ)
  obtain ⟨h2, h5, h6, h7⟩ := Cert.KernelIdeal.Takes.of_pre _ _ _ _ _ _ _ _ (hpre c)
  exact Cert.KernelIdeal.KernelLoss.value m ρ c h2 h5 h6 h7

theorem algebraic : Cert.algebraic_KernelIdeal_ReferenceIdeal := by
  intro m ρ m' ρ' hpre hagree
  refine ⟨_, kernel_run m ρ hpre, ?_⟩
  refine (θ_run Cert.ReferenceIdeal.defs _ _).mono (fun r h c => ⟨(h c).1.trans ?_, (h c).2⟩)
    (Cert.ReferenceIdeal.ValueP.run (F := Ideal) m' ρ')
  obtain ⟨e0, e1, e2, e3, e4, e5, e6, e7⟩ := hagree c
  show Cert.ReferenceIdeal.ValueP.res_out0 (F := Ideal) m' c = _
  rw [Cert.ReferenceIdeal.RefLoss.value m' c, e0, e1, e2, e3, e4, e5, e6, e7]
  rfl

end Cert.Proof.Claims

end
-- ==== Proof.lean ====
/-
  The certificate's claim: the kernel program and its idealization run and leave their arguments as they found them,
  the idealized reference likewise, nothing was rewritten when the kernel was idealized, and at the extended reals the
  idealized kernel program and the idealized reference, run from memories that agree on the eight argument arrays,
  end with the same loss. The precondition: every float input is finite and every index the programs gather with is a
  row number of the table it indexes. The five claims are proved in Proof/Claims.lean; here they are put behind the
  witnesses of the side conditions the programs and the precondition state.
-/
import proofs.«426244_j67757404061704_2_alg».proof.Defs
import proofs.«426244_j67757404061704_2_alg».proof.Proof.Claims
import proofs.«426244_j67757404061704_2_alg».proof.Proof.Gen.Kernel
import proofs.«426244_j67757404061704_2_alg».proof.Proof.Gen.KernelIdeal
import proofs.«426244_j67757404061704_2_alg».proof.Proof.Gen.ReferenceIdeal
import proofs.«426244_j67757404061704_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
